-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S32x32 .f32) (main_arg5 : FVec F S32 .f32) (main_arg6 : FVec F S32x16 .f32) (main_arg7 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg6
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x32 .f32) (main_arg3 : FVec F S32 .f32) (main_arg4 : FVec F S32x32 .f32) (main_arg5 : FVec F S32 .f32) (main_arg6 : FVec F S32x16 .f32) (main_arg7 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S10000x32 : Shape := ⟨2, ![10000, 32]⟩
abbrev S1x32 : Shape := ⟨2, ![1, 32]⟩
abbrev S400x10000 : Shape := ⟨2, ![400, 10000]⟩
abbrev S400x32 : Shape := ⟨2, ![400, 32]⟩
abbrev S10000x16 : Shape := ⟨2, ![10000, 16]⟩
abbrev S1000x10000 : Shape := ⟨2, ![1000, 10000]⟩
abbrev S1000x16 : Shape := ⟨2, ![1000, 16]⟩
abbrev S1000x32 : Shape := ⟨2, ![1000, 32]⟩
abbrev S1x16 : Shape := ⟨2, ![1, 16]⟩
abbrev S1000 : Shape := ⟨1, ![1000]⟩
abbrev S1000x1 : Shape := ⟨2, ![1000, 1]⟩

abbrev nBuf : Space → Nat
  | .hbm => 16
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S10000x32, .bf16⟩
  | .hbm, ⟨9, _⟩ => ⟨S1x32, .f32⟩
  | .hbm, ⟨10, _⟩ => ⟨S10000x10000, .bf16⟩
  | .hbm, ⟨11, _⟩ => ⟨S10000x32, .bf16⟩
  | .hbm, ⟨12, _⟩ => ⟨S1x32, .f32⟩
  | .hbm, ⟨13, _⟩ => ⟨S10000x16, .bf16⟩
  | .hbm, ⟨14, _⟩ => ⟨S1x16, .f32⟩
  | .hbm, ⟨15, _⟩ => ⟨S10000x16, .f32⟩
  | .local _ .vmem, ⟨0, _⟩ => ⟨S10000x128, .f32⟩
  | .local _ .vmem, ⟨1, _⟩ => ⟨S128x32, .f32⟩
  | .local _ .vmem, ⟨2, _⟩ => ⟨S10000x32, .bf16⟩
  | .local _ .vmem, ⟨3, _⟩ => ⟨S400x10000, .f32⟩
  | .local _ .vmem, ⟨4, _⟩ => ⟨S400x10000, .f32⟩
  | .local _ .vmem, ⟨5, _⟩ => ⟨S10000x32, .bf16⟩
  | .local _ .vmem, ⟨6, _⟩ => ⟨S1x32, .f32⟩
  | .local _ .vmem, ⟨7, _⟩ => ⟨S32x32, .f32⟩
  | .local _ .vmem, ⟨8, _⟩ => ⟨S400x10000, .bf16⟩
  | .local _ .vmem, ⟨9, _⟩ => ⟨S400x10000, .bf16⟩
  | .local _ .vmem, ⟨10, _⟩ => ⟨S400x32, .bf16⟩
  | .local _ .vmem, ⟨11, _⟩ => ⟨S400x32, .bf16⟩
  | .local _ .vmem, ⟨12, _⟩ => ⟨S1000x10000, .bf16⟩
  | .local _ .vmem, ⟨13, _⟩ => ⟨S1000x10000, .bf16⟩
  | .local _ .vmem, ⟨14, _⟩ => ⟨S10000x32, .bf16⟩
  | .local _ .vmem, ⟨15, _⟩ => ⟨S1x32, .f32⟩
  | .local _ .vmem, ⟨16, _⟩ => ⟨S32x16, .f32⟩
  | .local _ .vmem, ⟨17, _⟩ => ⟨S1000x16, .bf16⟩
  | .local _ .vmem, ⟨18, _⟩ => ⟨S1000x16, .bf16⟩
  | .local _ .vmem, ⟨19, _⟩ => ⟨S1000x10000, .bf16⟩
  | .local _ .vmem, ⟨20, _⟩ => ⟨S1000x10000, .bf16⟩
  | .local _ .vmem, ⟨21, _⟩ => ⟨S10000x16, .bf16⟩
  | .local _ .vmem, ⟨22, _⟩ => ⟨S1x16, .f32⟩
  | .local _ .vmem, ⟨23, _⟩ => ⟨S1000x16, .f32⟩
  | .local _ .vmem, ⟨24, _⟩ => ⟨S1000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x10000 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x32 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x16 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  bitsLt_bf16_f32 : FTy.bits .bf16 < FTy.bits .f32
  inb_S10000x32_S10000x32_0_0 : ∀ a, (![0, 0] : Fin 2 → Nat) a + S10000x32.size a ≤ S10000x32.size a
  h_S10000x32 : 0 < S10000x32.numel
  packedbf16_S10000x32_S10000x32_0_0 : (Rect.unit (s := S10000x32) ![0, 0] S10000x32.size inb_S10000x32_S10000x32_0_0).PackedRows (EltTy.packing .bf16)
  shapeCasts_S32_S1x32 : S32.ShapeCasts S1x32
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  inb_S32x32_S32x32_0_0 : ∀ a, (![0, 0] : Fin 2 → Nat) a + S32x32.size a ≤ S32x32.size a
  h_S32x32 : 0 < S32x32.numel
  inb_S400x32_S400x32_0_0 : ∀ a, (![0, 0] : Fin 2 → Nat) a + S400x32.size a ≤ S400x32.size a
  h_S400x32 : 0 < S400x32.numel
  packedbf16_S400x32_S400x32_0_0 : (Rect.unit (s := S400x32) ![0, 0] S400x32.size inb_S400x32_S400x32_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x32_S1000x32 : S1x32.Broadcasts S1000x32
  inb_S32x16_S32x16_0_0 : ∀ a, (![0, 0] : Fin 2 → Nat) a + S32x16.size a ≤ S32x16.size a
  h_S32x16 : 0 < S32x16.numel
  inb_S1000x16_S1000x16_0_0 : ∀ a, (![0, 0] : Fin 2 → Nat) a + S1000x16.size a ≤ S1000x16.size a
  h_S1000x16 : 0 < S1000x16.numel
  packedbf16_S1000x16_S1000x16_0_0 : (Rect.unit (s := S1000x16) ![0, 0] S1000x16.size inb_S1000x16_S1000x16_0_0).PackedRows (EltTy.packing .bf16)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1000x16 : S1x16.Broadcasts S1000x16
  reduces_S1000x16_S1000 : S1000x16.Reduces [1] S1000
  shapeCasts_S1000_S1000x1 : S1000.ShapeCasts S1000x1
  broadcasts_S1000x1_S1000x16 : S1000x1.Broadcasts S1000x16
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x32_S400x32_1_0_0_1_n_n_wf : DotDims.WF S400x32 S32x32 S400x32 [1] [0] [0] [1] [] []
  dot_S1000x10000_S10000x32_S1000x32_1_0_0_1_n_n_wf : DotDims.WF S1000x10000 S10000x32 S1000x32 [1] [0] [0] [1] [] []
  dot_S1000x32_S32x16_S1000x16_1_0_0_1_n_n_wf : DotDims.WF S1000x32 S32x16 S1000x16 [1] [0] [0] [1] [] []
  dot_S1000x10000_S10000x16_S1000x16_1_0_0_1_n_n_wf : DotDims.WF S1000x10000 S10000x16 S1000x16 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .bf16 = 32 ∨ (Rect.block (s := S10000x32) S10000x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x10000.size a ≤ S10000x10000.size a
  hwx1_4 : ∀ i : grid1.Coords, EltTy.bits .bf16 = 32 ∨ (Rect.block (s := S10000x10000) S400x10000.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x32.size a ≤ S10000x32.size a
  hwx1_5 : ∀ i : grid1.Coords, EltTy.bits .bf16 = 32 ∨ (Rect.block (s := S10000x32) S400x32.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .bf16 = 32 ∨ (Rect.block (s := S10000x32) S10000x32.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x16.size a ≤ S32x16.size a
  hwx2_3 : ∀ i : grid2.Coords, EltTy.bits .f32 = 32 ∨ (Rect.block (s := S32x16) S32x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x16.size a ≤ S10000x16.size a
  hwx2_4 : ∀ i : grid2.Coords, EltTy.bits .bf16 = 32 ∨ (Rect.block (s := S10000x16) S1000x16.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x10000.size a ≤ S10000x10000.size a
  hwx3_0 : ∀ i : grid3.Coords, EltTy.bits .bf16 = 32 ∨ (Rect.block (s := S10000x10000) S1000x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .bf16 = 32 ∨ (Rect.block (s := S10000x16) S10000x16.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x16.size a ≤ S10000x16.size a
  hwx3_3 : ∀ i : grid3.Coords, EltTy.bits .f32 = 32 ∨ (Rect.block (s := S10000x16) S1000x16.size (cc3_transform_3 i) (hinb3_3 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x32_S400x32_1_0_0_1_n_n : DotDims S400x32 S32x32 S400x32 where
  lhsContracting := [1]
  rhsContracting := [0]
  lhsNonContracting := [0]
  rhsNonContracting := [1]
  lhsBatch := []
  rhsBatch := []
  wf := dot_S400x32_S32x32_S400x32_1_0_0_1_n_n_wf
def dot_S1000x10000_S10000x32_S1000x32_1_0_0_1_n_n : DotDims S1000x10000 S10000x32 S1000x32 where
  lhsContracting := [1]
  rhsContracting := [0]
  lhsNonContracting := [0]
  rhsNonContracting := [1]
  lhsBatch := []
  rhsBatch := []
  wf := dot_S1000x10000_S10000x32_S1000x32_1_0_0_1_n_n_wf
def dot_S1000x32_S32x16_S1000x16_1_0_0_1_n_n : DotDims S1000x32 S32x16 S1000x16 where
  lhsContracting := [1]
  rhsContracting := [0]
  lhsNonContracting := [0]
  rhsNonContracting := [1]
  lhsBatch := []
  rhsBatch := []
  wf := dot_S1000x32_S32x16_S1000x16_1_0_0_1_n_n_wf
def dot_S1000x10000_S10000x16_S1000x16_1_0_0_1_n_n : DotDims S1000x10000 S10000x16 S1000x16 where
  lhsContracting := [1]
  rhsContracting := [0]
  lhsNonContracting := [0]
  rhsNonContracting := [1]
  lhsBatch := []
  rhsBatch := []
  wf := dot_S1000x10000_S10000x16_S1000x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S400x10000.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S400x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v2_0) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_1) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S32x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v2_0) S1000x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S1000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S10000x32 : Shape := ⟨2, ![10000, 32]⟩
abbrev S1x32 : Shape := ⟨2, ![1, 32]⟩
abbrev S_ : Shape := ⟨0, ![]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S10000x32, .f32⟩
  | .hbm, ⟨9, _⟩ => ⟨S10000x32, .f32⟩
  | .hbm, ⟨10, _⟩ => ⟨S1x32, .f32⟩
  | .hbm, ⟨11, _⟩ => ⟨S10000x32, .f32⟩
  | .hbm, ⟨12, _⟩ => ⟨S10000x32, .f32⟩
  | .hbm, ⟨13, _⟩ => ⟨S_, .f32⟩
  | .hbm, ⟨14, _⟩ => ⟨S10000x32, .f32⟩
  | .hbm, ⟨15, _⟩ => ⟨S10000x32, .f32⟩
  | .hbm, ⟨16, _⟩ => ⟨S10000x32, .f32⟩
  | .hbm, ⟨17, _⟩ => ⟨S10000x32, .f32⟩
  | .hbm, ⟨18, _⟩ => ⟨S1x32, .f32⟩
  | .hbm, ⟨19, _⟩ => ⟨S10000x32, .f32⟩
  | .hbm, ⟨20, _⟩ => ⟨S10000x32, .f32⟩
  | .hbm, ⟨21, _⟩ => ⟨S_, .f32⟩
  | .hbm, ⟨22, _⟩ => ⟨S10000x32, .f32⟩
  | .hbm, ⟨23, _⟩ => ⟨S10000x32, .f32⟩
  | .hbm, ⟨24, _⟩ => ⟨S10000x16, .f32⟩
  | .hbm, ⟨25, _⟩ => ⟨S10000x16, .f32⟩
  | .hbm, ⟨26, _⟩ => ⟨S1x16, .f32⟩
  | .hbm, ⟨27, _⟩ => ⟨S10000x16, .f32⟩
  | .hbm, ⟨28, _⟩ => ⟨S10000x16, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x16, .f32⟩
  | .hbm, ⟨36, _⟩ => ⟨S10000x16, .f32⟩
  | .hbm, ⟨37, _⟩ => ⟨S10000x16, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x1, .f32⟩
  | .hbm, ⟨42, _⟩ => ⟨S10000x16, .f32⟩
  | .hbm, ⟨43, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_call2_cst_0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_cst_1 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_v17 : Ref sig .tc := ⟨.hbm, 43, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x32_S10000x32_1_0_0_1_n_n_wf : DotDims.WF S10000x32 S32x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.Spec.lean ====
/-
  A three-layer graph convolution with a dense adjacency matrix, row by row, over the extended reals.

  One dense step on a row `a` of the adjacency matrix: `pre a z b j = (∑ k, a k * z k j) + b j`, the row times the
  feature matrix `z`, plus the bias. A hidden layer clips that at zero and multiplies by the next weight matrix:
  `hid a z b W c = ∑ j, max (pre a z b j) 0 * W j c`. The last layer takes the logarithm of the softmax of its row
  `y`: `lsm lo y c = (y c - M) - log (∑ j, exp (y j - M))` with `M` the row's maximum, folded from `lo`.
  Every row of a layer's output depends on ONE row of the adjacency matrix only, so a block of rows of the output is
  the same formula on the block's rows.
-/
import Idealize.ShloMosaic.PureOps.Ideal
import Mathlib.Data.EReal.Operations
import Mathlib.Algebra.BigOperators.Group.Finset.Basic
import Mathlib.Data.Finset.Fold

noncomputable section

namespace Cert.GcnDense

open Idealize.ShloMosaic
open scoped BigOperators

variable {K H C : ℕ}

/-- A row of the adjacency matrix times the feature matrix, plus the bias. -/
def pre (a : Fin K → EReal) (z : Fin K → Fin H → EReal) (b : Fin H → EReal) (j : Fin H) : EReal :=
  (∑ k, a k * z k j) + b j

/-- A hidden layer's row handed to the next layer: the dense step clipped at zero, times the next weights. -/
def hid (a : Fin K → EReal) (z : Fin K → Fin H → EReal) (b : Fin H → EReal) (W : Fin H → Fin C → EReal) (c : Fin C) : EReal :=
  ∑ j, max (pre a z b j) 0 * W j c

/-- The maximum of a row, folded from `lo`. -/
def rowMax (lo : EReal) (y : Fin C → EReal) : EReal := (Finset.univ : Finset (Fin C)).fold max lo y

/-- The logarithm of the softmax of a row, shifted by the row's maximum. -/
def lsm (lo : EReal) (y : Fin C → EReal) (c : Fin C) : EReal :=
  (y c - rowMax lo y) - Ideal.log (∑ j, Ideal.exp (y j - rowMax lo y))

/-- Taking the maximum with `lo` once more changes nothing: the fold started there. -/
theorem max_rowMax (lo : EReal) (y : Fin C → EReal) : max lo (rowMax lo y) = rowMax lo y :=
  max_eq_right (Finset.le_fold_max (b := lo) (f := y) (s := Finset.univ) lo |>.mpr (Or.inl le_rfl))

/-- The whole network, entry (r, c): features `X`, adjacency `A`, weights and biases of the three layers. -/
def net {N D : ℕ} {H2 : ℕ} (lo : EReal) (X : Fin N → Fin D → EReal) (A : Fin N → Fin N → EReal)
    (W1 : Fin D → Fin H → EReal) (b1 : Fin H → EReal) (W2 : Fin H → Fin H2 → EReal) (b2 : Fin H2 → EReal)
    (W3 : Fin H2 → Fin C → EReal) (b3 : Fin C → EReal) (r : Fin N) (c : Fin C) : EReal :=
  lsm lo (pre (A r) (fun n q => hid (A n) (fun n' q' => hid (A n') (fun n'' j => ∑ d, X n'' d * W1 d j) b1 W2 q') b2 W3 q) b3) c

end Cert.GcnDense

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.Payload.lean ====
/-
  What each kernel body stores, entry by entry, over the extended reals.

  The first body stores the product of its two operands. The two hidden-layer bodies store, at row `p` and column `q` of
  their block, `hid` of row `p` of the adjacency block: that row times the feature matrix, plus the bias row, clipped at
  zero, times the next weights (a change of float format is the identity on the extended reals, and a matrix product
  into a zero accumulator is the plain sum over the contracted coordinate). The first hidden-layer body also stores its
  adjacency block back unchanged. The last body stores the logarithm of the softmax of its row.
-/
import proofs.«140017_g11441792876995_week1_w4_521_4_alg».proof.Proof.Gen.KernelIdeal.Skeleton
import proofs.«140017_g11441792876995_week1_w4_521_4_alg».proof.Proof.Spec
import proofs.«140017_g11441792876995_week1_w4_521_4_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Idealize.ShloMosaic.TcCoe Cert.GcnDense

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first body's stored value: the product of the features and the first weights. -/
theorem pay0 (x0 : Vec Ideal S10000x128 .f32) (x1 : Vec Ideal S128x32 .f32) (r : Fin 10000) (c : Fin 32) :
    k0_pay1 x0 x1 (ix2 r c) = ∑ k : Fin 128, x0 (ix2 r k) * x1 (ix2 k c) := by
  unfold k0_pay1
  exact Cert.PlainMatmul.apply (φ₁ := .f32) (φ₂ := .f32) none x0 x1 r c

/-- The adjacency block is stored back unchanged. -/
theorem pay1_adj (x0 : Vec Ideal S400x10000 .f32) (i : S400x10000.Idx) : k1_pay1 x0 i = x0 i := rfl

/-- The first hidden layer's block, entry (p, q). -/
theorem pay1_hid (x0 : Vec Ideal S400x10000 .f32) (x1 : Vec Ideal S10000x32 .bf16) (x2 : Vec Ideal S1x32 .f32) (x3 : Vec Ideal S32x32 .f32)
    (p : Fin 400) (q : Fin 32) :
    k1_pay2 x0 x1 x2 x3 (ix2 p q)
      = hid (fun k : Fin 10000 => x0 (ix2 p k)) (fun (k : Fin 10000) (j : Fin 32) => x1 (ix2 k j)) (fun j : Fin 32 => x2 (ix2 (0 : Fin 1) j))
          (fun (j : Fin 32) (c : Fin 32) => x3 (ix2 j c)) q := by
  unfold k1_pay2
  refine (Cert.PlainMatmul.apply (φ₁ := .f32) (φ₂ := .f32) none _ x3 p q).trans ?_
  unfold hid pre
  refine Finset.sum_congr rfl fun j _ => ?_
  congr 1
  rw [maximumf_apply, addf_apply, broadcast_apply]
  congr 1
  · congr 1
    · rw [shapeCast_self]
      exact Cert.PlainMatmul.apply (φ₁ := .bf16) (φ₂ := .bf16) none (k1_pay1 x0) x1 p j
    · rw [shapeCast_self]
      exact broadcastTo_1b_ab_apply x2 _ p j
  · exact Ideal.ofBits_zero_f32

/-- The second hidden layer's block, entry (p, q). -/
theorem pay2_hid (x0 : Vec Ideal S1000x10000 .bf16) (x1 : Vec Ideal S10000x32 .bf16) (x2 : Vec Ideal S1x32 .f32) (x3 : Vec Ideal S32x16 .f32)
    (p : Fin 1000) (q : Fin 16) :
    k2_pay1 x0 x1 x2 x3 (ix2 p q)
      = hid (fun k : Fin 10000 => x0 (ix2 p k)) (fun (k : Fin 10000) (j : Fin 32) => x1 (ix2 k j)) (fun j : Fin 32 => x2 (ix2 (0 : Fin 1) j))
          (fun (j : Fin 32) (c : Fin 16) => x3 (ix2 j c)) q := by
  unfold k2_pay1
  refine (Cert.PlainMatmul.apply (φ₁ := .f32) (φ₂ := .f32) none _ x3 p q).trans ?_
  unfold hid pre
  refine Finset.sum_congr rfl fun j _ => ?_
  congr 1
  rw [maximumf_apply, addf_apply, broadcast_apply]
  congr 1
  · congr 1
    · simp only [shapeCast_self]
      exact Cert.PlainMatmul.apply (φ₁ := .bf16) (φ₂ := .bf16) none x0 x1 p j
    · rw [shapeCast_self]
      exact broadcastTo_1b_ab_apply x2 _ p j
  · exact Ideal.ofBits_zero_f32

/-- A row's maximum, as the body reduces it, is the fold of `max` over the row from the accumulator's value. -/
theorem rowmax_eq (y : FVec Ideal S1000x16 .f32) (p : Fin 1000) :
    multiReduction .maximumf [1] S1000 y 0xFF800000#32 reduces_S1000x16_S1000 (.inl rfl) rfl (ix1 p)
      = rowMax (Ideal.ofBits .f32 0xFF800000#32) (fun j : Fin 16 => y (ix2 p j)) := by
  refine (Ideal.multiReduction_maximumf_single y _ reduces_S1000x16_S1000 (.inl rfl) rfl (ix1 p)).trans ?_
  unfold rowMax
  exact congrArg (fun f => Finset.fold max (Ideal.ofBits .f32 0xFF800000#32) f Finset.univ)
    (funext fun k => congrArg y (funext fun a => Fin.ext (by match a with | ⟨0, _⟩ => rfl | ⟨1, _⟩ => rfl)))

/-- A row's sum, as the body reduces it. -/
theorem rowsum_eq (e : FVec Ideal S1000x16 .f32) (p : Fin 1000) :
    multiReduction .add [1] S1000 e 0x00000000#32 reduces_S1000x16_S1000 (.inl rfl) rfl (ix1 p) = ∑ j : Fin 16, e (ix2 p j) :=
  (Ideal.multiReduction_add_single e _ reduces_S1000x16_S1000 (.inl rfl) rfl (ix1 p)).trans
    (Finset.sum_congr rfl fun k _ => congrArg e (funext fun a => Fin.ext (by match a with | ⟨0, _⟩ => rfl | ⟨1, _⟩ => rfl)))

/-- The shifted logarithm of the softmax of a block `y`, as the last body computes it, entry (p, q). -/
theorem lsm_block (y : FVec Ideal S1000x16 .f32) (p : Fin 1000) (q : Fin 16) :
    subf (subf y (broadcastTo S1000x16 (shapeCast S1000x1 (multiReduction .maximumf [1] S1000 y 0xFF800000#32 reduces_S1000x16_S1000 (.inl rfl) rfl) shapeCasts_S1000_S1000x1) broadcasts_S1000x1_S1000x16))
      (broadcastTo S1000x16 (log (shapeCast S1000x1 (multiReduction .add [1] S1000
        (exp (subf y (broadcastTo S1000x16 (shapeCast S1000x1 (multiReduction .maximumf [1] S1000 y 0xFF800000#32 reduces_S1000x16_S1000 (.inl rfl) rfl) shapeCasts_S1000_S1000x1) broadcasts_S1000x1_S1000x16)))
        0x00000000#32 reduces_S1000x16_S1000 (.inl rfl) rfl) shapeCasts_S1000_S1000x1)) broadcasts_S1000x1_S1000x16) (ix2 p q)
      = lsm (Ideal.ofBits .f32 0xFF800000#32) (fun j : Fin 16 => y (ix2 p j)) q := by
  have hM : ∀ c : Fin 16, broadcastTo S1000x16 (shapeCast S1000x1 (multiReduction .maximumf [1] S1000 y 0xFF800000#32 reduces_S1000x16_S1000 (.inl rfl) rfl) shapeCasts_S1000_S1000x1) broadcasts_S1000x1_S1000x16 (ix2 p c)
      = rowMax (Ideal.ofBits .f32 0xFF800000#32) (fun j : Fin 16 => y (ix2 p j)) := fun c =>
    (broadcastTo_a1_ab_apply _ _ p c).trans ((shapeCast_a_a1_apply _ _ p 0).trans (rowmax_eq y p))
  unfold lsm
  rw [subf_apply, subf_apply, hM q]
  congr 1
  refine (broadcastTo_a1_ab_apply _ _ p q).trans ?_
  show Ideal.log (shapeCast S1000x1 _ shapeCasts_S1000_S1000x1 (ix2 p (0 : Fin 1))) = _
  rw [shapeCast_a_a1_apply _ _ p 0, rowsum_eq]
  congr 1
  refine Finset.sum_congr rfl fun j _ => ?_
  show Ideal.exp (subf y _ (ix2 p j)) = _
  rw [subf_apply, hM j]

/-- The last body's block, entry (p, q): the logarithm of the softmax of row `p` of the last dense step. -/
theorem pay3_lsm (x0 : Vec Ideal S1000x10000 .bf16) (x1 : Vec Ideal S10000x16 .bf16) (x2 : Vec Ideal S1x16 .f32) (p : Fin 1000) (q : Fin 16) :
    k3_pay1 x0 x1 x2 (ix2 p q)
      = lsm (Ideal.ofBits .f32 0xFF800000#32)
          (pre (fun k : Fin 10000 => x0 (ix2 p k)) (fun (k : Fin 10000) (j : Fin 16) => x1 (ix2 k j)) (fun j : Fin 16 => x2 (ix2 (0 : Fin 1) j))) q := by
  unfold k3_pay1
  refine (lsm_block _ p q).trans ?_
  congr 1
  funext j
  unfold pre
  rw [addf_apply]
  congr 1
  · simp only [shapeCast_self]
    exact Cert.PlainMatmul.apply (φ₁ := .bf16) (φ₂ := .bf16) none x0 x1 p j
  · rw [shapeCast_self]
    exact broadcastTo_1b_ab_apply x2 _ p j

/-! The same at an index of the block's own index type. -/

theorem pay0_idx (x0 : Vec Ideal S10000x128 .f32) (x1 : Vec Ideal S128x32 .f32) (y : S10000x32.Idx) :
    k0_pay1 x0 x1 y = ∑ k : Fin 128, x0 (ix2 (y 0) k) * x1 (ix2 k (y 1)) := by
  obtain ⟨r, c, rfl⟩ : ∃ (r : Fin 10000) (c : Fin 32), y = ix2 r c := ⟨y 0, y 1, eq_ix2 y⟩
  exact pay0 x0 x1 r c

theorem pay1_hid_idx (x0 : Vec Ideal S400x10000 .f32) (x1 : Vec Ideal S10000x32 .bf16) (x2 : Vec Ideal S1x32 .f32) (x3 : Vec Ideal S32x32 .f32)
    (y : S400x32.Idx) :
    k1_pay2 x0 x1 x2 x3 y
      = hid (fun k : Fin 10000 => x0 (ix2 (y 0) k)) (fun (k : Fin 10000) (j : Fin 32) => x1 (ix2 k j)) (fun j : Fin 32 => x2 (ix2 (0 : Fin 1) j))
          (fun (j : Fin 32) (c : Fin 32) => x3 (ix2 j c)) (y 1) := by
  obtain ⟨p, q, rfl⟩ : ∃ (p : Fin 400) (q : Fin 32), y = ix2 p q := ⟨y 0, y 1, eq_ix2 y⟩
  exact pay1_hid x0 x1 x2 x3 p q

theorem pay2_hid_idx (x0 : Vec Ideal S1000x10000 .bf16) (x1 : Vec Ideal S10000x32 .bf16) (x2 : Vec Ideal S1x32 .f32) (x3 : Vec Ideal S32x16 .f32)
    (y : S1000x16.Idx) :
    k2_pay1 x0 x1 x2 x3 y
      = hid (fun k : Fin 10000 => x0 (ix2 (y 0) k)) (fun (k : Fin 10000) (j : Fin 32) => x1 (ix2 k j)) (fun j : Fin 32 => x2 (ix2 (0 : Fin 1) j))
          (fun (j : Fin 32) (c : Fin 16) => x3 (ix2 j c)) (y 1) := by
  obtain ⟨p, q, rfl⟩ : ∃ (p : Fin 1000) (q : Fin 16), y = ix2 p q := ⟨y 0, y 1, eq_ix2 y⟩
  exact pay2_hid x0 x1 x2 x3 p q

theorem pay3_lsm_idx (x0 : Vec Ideal S1000x10000 .bf16) (x1 : Vec Ideal S10000x16 .bf16) (x2 : Vec Ideal S1x16 .f32) (y : S1000x16.Idx) :
    k3_pay1 x0 x1 x2 y
      = lsm (Ideal.ofBits .f32 0xFF800000#32)
          (pre (fun k : Fin 10000 => x0 (ix2 (y 0) k)) (fun (k : Fin 10000) (j : Fin 16) => x1 (ix2 k j)) (fun j : Fin 16 => x2 (ix2 (0 : Fin 1) j))) (y 1) := by
  obtain ⟨p, q, rfl⟩ : ∃ (p : Fin 1000) (q : Fin 16), y = ix2 p q := ⟨y 0, y 1, eq_ix2 y⟩
  exact pay3_lsm x0 x1 x2 p q

end Cert.KernelIdeal.Payload

end
-- ==== Proof.Blocks0.lean ====
/-
  The first region (no grid: one point whose blocks are the whole arrays): what its output array holds when it ends,
  the product of the features and the first weights.
-/
import proofs.«140017_g11441792876995_week1_w4_521_4_alg».proof.Proof.Gen.KernelIdeal.Frame
import proofs.«140017_g11441792876995_week1_w4_521_4_alg».proof.Proof.Payload
import Idealize.ShloMosaic.Lib.Pipeline.Value

set_option maxRecDepth 16384

noncomputable section

namespace Cert.KernelIdeal.Blocks0

open Cert.KernelIdeal Cert.KernelIdeal.Gen Cert.KernelIdeal.Payload Cert.GcnDense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Every window is on its one block at the one point. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The features' one block is the whole array. -/
theorem iblk0_0_apply (c : Dev nD) (t : Fin cfg0.N) (x : S10000x128.Idx) :
    (iblk0 V c 0 t : Vec Ideal S10000x128 .f32) x = (V c main_arg0 : S10000x128.Idx → EReal) x := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 10000 + 1 * (x 0).val = (x 0).val; rw [e0]; omega
  | ⟨1, _⟩ => show win0_0.index t 1 * 128 + 1 * (x 1).val = (x 1).val; rw [e1]; omega

/-- The weights' one block is the whole matrix. -/
theorem iblk0_1_apply (c : Dev nD) (t : Fin cfg0.N) (x : S128x32.Idx) :
    (iblk0 V c 1 t : Vec Ideal S128x32 .f32) x = (V c main_arg2 : S128x32.Idx → EReal) x := by
  obtain ⟨-, -, e0, e1, -⟩ := idx0 t
  unfold iblk0
  rw [View.read_apply]
  show V c main_arg2 _ = V c main_arg2 _
  congr 1
  funext a
  apply Fin.ext
  match a with
  | ⟨0, _⟩ => show win0_1.index t 0 * 128 + 1 * (x 0).val = (x 0).val; rw [e0]; omega
  | ⟨1, _⟩ => show win0_1.index t 1 * 32 + 1 * (x 1).val = (x 1).val; rw [e1]; omega

/-- The inner product of a row of features and a column of weights. -/
def dot128 (a b : Fin 128 → EReal) : EReal := ∑ k, a k * b k

/-- What the output array ends holding: the product of the features and the weights. -/
abbrev product0 (c : Dev nD) : S10000x32.Idx → EReal := fun i =>
  dot128 (fun k => (V c main_arg0 : S10000x128.Idx → EReal) (ix2 (i 0) k)) (fun k => (V c main_arg2 : S128x32.Idx → EReal) (ix2 k (i 1)))

/-- What the one point writes back is the one block of `product0`. -/
theorem flushed0_2_eq (c : Dev nD) (t : Fin cfg0.N) :
    (dat0 V c).flushed 2 t = ((cfg0.win 2).blk t).view.read (Elt Ideal) (product0 V c) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S128x32) hz2]
  obtain ⟨-, -, -, -, e0, e1⟩ := idx0 t
  funext j
  show k0_pay1 (iblk0 V c 0 t) (iblk0 V c 1 t) j = product0 V c (((cfg0.win 2).blk t).view.emb j)
  refine (pay0_idx (iblk0 V c 0 t) (iblk0 V c 1 t) j).trans ?_
  have r0 : ((((cfg0.win 2).blk t).view.emb j) 0).val = (j 0).val := by
    show win0_2.index t 0 * 10000 + 1 * (j 0).val = _; rw [e0]; omega
  have r1 : ((((cfg0.win 2).blk t).view.emb j) 1).val = (j 1).val := by
    show win0_2.index t 1 * 32 + 1 * (j 1).val = _; rw [e1]; omega
  show _ = dot128 _ _
  unfold dot128
  refine Finset.sum_congr rfl fun k _ => ?_
  congr 1
  · refine (iblk0_0_apply V c t _).trans ?_
    exact congrArg (V c main_arg0 : S10000x128.Idx → EReal) (congrArg (fun a => ix2 a k) (Fin.ext r0.symm))
  · refine (iblk0_1_apply V c t _).trans ?_
    exact congrArg (V c main_arg2 : S128x32.Idx → EReal) (congrArg (fun a => ix2 k a) (Fin.ext r1.symm))

/-- An index of the output is in the one block iff each coordinate is in the block's range. -/
theorem mem_blk0_2 (t : Fin cfg0.N) (i : S10000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v0).slice (win0_2.rect t)).set ↔ _
  rw [View.set_slice_whole, Rect.mem_set_unit]
  exact Iff.rfl

/-- THE OUTPUT after the region: the product of the arrays it found. -/
theorem final0_2 (c : Dev nD) : (dat0 V c).arrAt 2 cfg0.N = product0 V c :=
  (dat0 V c).arrAt_eq_of_cover 2 (product0 V c) (fun t _ => flushed0_2_eq V c t) fun i => by
    have h0 : (i 0).val < 10000 := (i 0).isLt
    have h1 : (i 1).val < 32 := (i 1).isLt
    refine ⟨t0_0, flush0_2 _, ?_⟩
    rw [mem_blk0_2]
    obtain ⟨-, -, -, -, e0, e1⟩ := idx0 t0_0
    intro a
    match a with
    | ⟨0, _⟩ =>
      show win0_2.index t0_0 0 * 10000 ≤ (i 0).val ∧ (i 0).val < win0_2.index t0_0 0 * 10000 + 10000
      rw [e0]; omega
    | ⟨1, _⟩ =>
      show win0_2.index t0_0 1 * 32 ≤ (i 1).val ∧ (i 1).val < win0_2.index t0_0 1 * 32 + 32
      rw [e1]; omega

end Cert.KernelIdeal.Blocks0

end
-- ==== Proof.Blocks1.lean ====
/-
  The first hidden layer's region, block by block: what its two output arrays hold when it ends.

  Point `t` of the grid works on rows `400 t … 400 t + 399`: the adjacency window's block at `t` is those rows of the
  adjacency matrix, the other three input windows are whole arrays, and each output window's block at `t` is those rows
  of its array. A row of a layer's output depends on the same row of the adjacency matrix only, so the blocks are the
  row blocks of ONE function of the arrays the region finds, and the twenty-five blocks cover all 10000 rows.
-/
import proofs.«140017_g11441792876995_week1_w4_521_4_alg».proof.Proof.Gen.KernelIdeal.Frame
import proofs.«140017_g11441792876995_week1_w4_521_4_alg».proof.Proof.Payload
import Idealize.ShloMosaic.Lib.Pipeline.Value

set_option maxRecDepth 16384

noncomputable section

namespace Cert.KernelIdeal.Blocks

open Cert.KernelIdeal Cert.KernelIdeal.Gen Cert.KernelIdeal.Payload Cert.GcnDense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The block indices of the region's windows at point `t`: the adjacency window and the two output windows are on
    row block `t`, the other windows on their one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The adjacency block at point `t` is rows `400 t …` of the adjacency matrix. -/
theorem iblk1_0_apply (c : Dev nD) (t : Fin cfg1.N) (x : S400x10000.Idx) (k : S10000x10000.Idx)
    (hk0 : (k 0).val = 400 * t.val + (x 0).val) (hk1 : (k 1).val = (x 1).val) :
    (iblk1 V c 0 t : Vec Ideal S400x10000 .f32) x = (V c main_arg1 : S10000x10000.Idx → EReal) k := by
  obtain ⟨e0, e1, -⟩ := idx1 t
  unfold iblk1
  rw [View.read_apply]
  show V c main_arg1 _ = V c main_arg1 _
  congr 1
  funext a
  apply Fin.ext
  match a with
  | ⟨0, _⟩ => show win1_0.index t 0 * 400 + 1 * (x 0).val = (k 0).val; rw [e0, hk0]; omega
  | ⟨1, _⟩ => show win1_0.index t 1 * 10000 + 1 * (x 1).val = (k 1).val; rw [e1, hk1]; omega

/-- The feature window's one block is the whole array. -/
theorem iblk1_1_apply (c : Dev nD) (t : Fin cfg1.N) (x : S10000x32.Idx) :
    (iblk1 V c 1 t : Vec Ideal S10000x32 .bf16) x = (V c main_v0 : S10000x32.Idx → EReal) x := by
  obtain ⟨-, -, e0, e1, -⟩ := idx1 t
  unfold iblk1
  rw [View.read_apply]
  show V c main_v0 _ = V c main_v0 _
  congr 1
  funext a
  apply Fin.ext
  match a with
  | ⟨0, _⟩ => show win1_1.index t 0 * 10000 + 1 * (x 0).val = (x 0).val; rw [e0]; omega
  | ⟨1, _⟩ => show win1_1.index t 1 * 32 + 1 * (x 1).val = (x 1).val; rw [e1]; omega

/-- The bias window's one block is the whole row. -/
theorem iblk1_2_apply (c : Dev nD) (t : Fin cfg1.N) (x : S1x32.Idx) :
    (iblk1 V c 2 t : Vec Ideal S1x32 .f32) x = (V c main_v1 : S1x32.Idx → EReal) x := by
  obtain ⟨-, -, -, -, e0, e1, -⟩ := idx1 t
  unfold iblk1
  rw [View.read_apply]
  show V c main_v1 _ = V c main_v1 _
  congr 1
  funext a
  apply Fin.ext
  match a with
  | ⟨0, _⟩ => show win1_2.index t 0 * 1 + 1 * (x 0).val = (x 0).val; rw [e0]; omega
  | ⟨1, _⟩ => show win1_2.index t 1 * 32 + 1 * (x 1).val = (x 1).val; rw [e1]; omega

/-- The weight window's one block is the whole matrix. -/
theorem iblk1_3_apply (c : Dev nD) (t : Fin cfg1.N) (x : S32x32.Idx) :
    (iblk1 V c 3 t : Vec Ideal S32x32 .f32) x = (V c main_arg4 : S32x32.Idx → EReal) x := by
  obtain ⟨-, -, -, -, -, -, e0, e1, -⟩ := idx1 t
  unfold iblk1
  rw [View.read_apply]
  show V c main_arg4 _ = V c main_arg4 _
  congr 1
  funext a
  apply Fin.ext
  match a with
  | ⟨0, _⟩ => show win1_3.index t 0 * 32 + 1 * (x 0).val = (x 0).val; rw [e0]; omega
  | ⟨1, _⟩ => show win1_3.index t 1 * 32 + 1 * (x 1).val = (x 1).val; rw [e1]; omega

/-- What the adjacency copy ends holding: the adjacency matrix the region found. -/
abbrev adjCopy (c : Dev nD) : S10000x10000.Idx → EReal := fun i => (V c main_arg1 : S10000x10000.Idx → EReal) i

/-- What the layer's output array ends holding: `hid` of each row of the adjacency matrix. -/
abbrev hidden1 (c : Dev nD) : S10000x32.Idx → EReal := fun i =>
  hid (fun k : Fin 10000 => (V c main_arg1 : S10000x10000.Idx → EReal) (ix2 (i 0) k))
    (fun (k : Fin 10000) (j : Fin 32) => (V c main_v0 : S10000x32.Idx → EReal) (ix2 k j))
    (fun j : Fin 32 => (V c main_v1 : S1x32.Idx → EReal) (ix2 (0 : Fin 1) j))
    (fun (j : Fin 32) (q : Fin 32) => (V c main_arg4 : S32x32.Idx → EReal) (ix2 j q)) (i 1)

/-- What point `t` writes back to the adjacency copy is block `t` of the adjacency matrix. -/
theorem flushed1_4_eq (c : Dev nD) (t : Fin cfg1.N) :
    (dat1 V c).flushed 4 t = ((cfg1.win 4).blk t).view.read (Elt Ideal) (adjCopy V c) := by
  show (cfg1.win 4).cut (grid1.coords t) ((dat1 V c).after 4 t) = _
  rw [after1_4]
  unfold out1_4
  rw [View.canon_unit_zero hz2]
  simp only [View.ld_unit_zero (S := S400x10000) hz2]
  obtain ⟨-, -, -, -, -, -, -, -, e0, e1, -⟩ := idx1 t
  funext j
  show k1_pay1 (iblk1 V c 0 t) j = adjCopy V c (((cfg1.win 4).blk t).view.emb j)
  rw [pay1_adj]
  refine iblk1_0_apply V c t j _ ?_ ?_
  · show win1_4.index t 0 * 400 + 1 * (j 0).val = 400 * t.val + (j 0).val; rw [e0]; omega
  · show win1_4.index t 1 * 10000 + 1 * (j 1).val = (j 1).val; rw [e1]; omega

/-- What point `t` writes back to the layer's output is block `t` of `hidden1`. -/
theorem flushed1_5_eq (c : Dev nD) (t : Fin cfg1.N) :
    (dat1 V c).flushed 5 t = ((cfg1.win 5).blk t).view.read (Elt Ideal) (hidden1 V c) := by
  show (cfg1.win 5).cut (grid1.coords t) ((dat1 V c).after 5 t) = _
  rw [after1_5]
  unfold out1_5
  rw [View.canon_unit_zero hz2]
  simp only [View.ld_unit_zero (S := S400x10000) hz2, View.ld_unit_zero (S := S10000x32) hz2, View.ld_unit_zero (S := S1x32) hz2,
    View.ld_unit_zero (S := S32x32) hz2]
  obtain ⟨-, -, -, -, -, -, -, -, -, -, e0, e1⟩ := idx1 t
  funext j
  show k1_pay2 (iblk1 V c 0 t) (iblk1 V c 1 t) (iblk1 V c 2 t) (iblk1 V c 3 t) j = hidden1 V c (((cfg1.win 5).blk t).view.emb j)
  refine (pay1_hid_idx (iblk1 V c 0 t) (iblk1 V c 1 t) (iblk1 V c 2 t) (iblk1 V c 3 t) j).trans ?_
  have r0 : ((((cfg1.win 5).blk t).view.emb j) 0).val = 400 * t.val + (j 0).val := by
    show win1_5.index t 0 * 400 + 1 * (j 0).val = _; rw [e0]; omega
  have r1 : ((((cfg1.win 5).blk t).view.emb j) 1).val = (j 1).val := by
    show win1_5.index t 1 * 32 + 1 * (j 1).val = _; rw [e1]; omega
  show hid _ _ _ _ _ = hid _ _ _ _ _
  congr 1
  · funext k
    exact iblk1_0_apply V c t _ _ (by rw [r0]) rfl
  · funext k q
    exact iblk1_1_apply V c t _
  · funext q
    exact iblk1_2_apply V c t _
  · funext k q
    exact iblk1_3_apply V c t _
  · exact Fin.ext r1.symm

/-- An index of the adjacency copy is in point `t`'s block iff each coordinate is in the block's range. -/
theorem mem_blk1_4 (t : Fin cfg1.N) (i : S10000x10000.Idx) :
    i ∈ ((cfg1.win 4).blk t).view.set ↔ ∀ a : Fin 2, win1_4.index t a * S400x10000.size a ≤ (i a).val ∧ (i a).val < win1_4.index t a * S400x10000.size a + S400x10000.size a := by
  show i ∈ ((View.whole main_v2_0).slice (win1_4.rect t)).set ↔ _
  rw [View.set_slice_whole, Rect.mem_set_unit]
  exact Iff.rfl

/-- An index of the layer's output is in point `t`'s block iff each coordinate is in the block's range. -/
theorem mem_blk1_5 (t : Fin cfg1.N) (i : S10000x32.Idx) :
    i ∈ ((cfg1.win 5).blk t).view.set ↔ ∀ a : Fin 2, win1_5.index t a * S400x32.size a ≤ (i a).val ∧ (i a).val < win1_5.index t a * S400x32.size a + S400x32.size a := by
  show i ∈ ((View.whole main_v2_1).slice (win1_5.rect t)).set ↔ _
  rw [View.set_slice_whole, Rect.mem_set_unit]
  exact Iff.rfl

/-- The point whose block holds row `r`: `r / 400`. -/
def pointOfRow1 (r : Nat) (hr : r < 10000) : Fin cfg1.N := ⟨r / 400, by show r / 400 < grid1.N; rw [N_1]; omega⟩

/-- THE ADJACENCY COPY after the region: the adjacency matrix it found (the twenty-five row blocks cover it). -/
theorem final1_4 (c : Dev nD) : (dat1 V c).arrAt 4 cfg1.N = adjCopy V c :=
  (dat1 V c).arrAt_eq_of_cover 4 (adjCopy V c) (fun t _ => flushed1_4_eq V c t) fun i => by
    have h0 : (i 0).val < 10000 := (i 0).isLt
    have h1 : (i 1).val < 10000 := (i 1).isLt
    refine ⟨pointOfRow1 (i 0).val h0, flush1_4 _, ?_⟩
    rw [mem_blk1_4]
    obtain ⟨-, -, -, -, -, -, -, -, e0, e1, -⟩ := idx1 (pointOfRow1 (i 0).val h0)
    intro a
    match a with
    | ⟨0, _⟩ =>
      show win1_4.index (pointOfRow1 (i 0).val h0) 0 * 400 ≤ (i 0).val ∧ (i 0).val < win1_4.index (pointOfRow1 (i 0).val h0) 0 * 400 + 400
      rw [e0]; show (i 0).val / 400 * 400 ≤ (i 0).val ∧ (i 0).val < (i 0).val / 400 * 400 + 400; omega
    | ⟨1, _⟩ =>
      show win1_4.index (pointOfRow1 (i 0).val h0) 1 * 10000 ≤ (i 1).val ∧ (i 1).val < win1_4.index (pointOfRow1 (i 0).val h0) 1 * 10000 + 10000
      rw [e1]; omega

/-- THE LAYER'S OUTPUT after the region: `hidden1` of the arrays it found. -/
theorem final1_5 (c : Dev nD) : (dat1 V c).arrAt 5 cfg1.N = hidden1 V c :=
  (dat1 V c).arrAt_eq_of_cover 5 (hidden1 V c) (fun t _ => flushed1_5_eq V c t) fun i => by
    have h0 : (i 0).val < 10000 := (i 0).isLt
    have h1 : (i 1).val < 32 := (i 1).isLt
    refine ⟨pointOfRow1 (i 0).val h0, flush1_5 _, ?_⟩
    rw [mem_blk1_5]
    obtain ⟨-, -, -, -, -, -, -, -, -, -, e0, e1⟩ := idx1 (pointOfRow1 (i 0).val h0)
    intro a
    match a with
    | ⟨0, _⟩ =>
      show win1_5.index (pointOfRow1 (i 0).val h0) 0 * 400 ≤ (i 0).val ∧ (i 0).val < win1_5.index (pointOfRow1 (i 0).val h0) 0 * 400 + 400
      rw [e0]; show (i 0).val / 400 * 400 ≤ (i 0).val ∧ (i 0).val < (i 0).val / 400 * 400 + 400; omega
    | ⟨1, _⟩ =>
      show win1_5.index (pointOfRow1 (i 0).val h0) 1 * 32 ≤ (i 1).val ∧ (i 1).val < win1_5.index (pointOfRow1 (i 0).val h0) 1 * 32 + 32
      rw [e1]; omega

end Cert.KernelIdeal.Blocks

end
-- ==== Proof.Blocks2.lean ====
/-
  The second hidden layer's region, block by block: what its output array holds when it ends.

  Point `t` of the grid works on rows `1000 t … 1000 t + 999`: the adjacency window's block at `t` is those rows of the
  adjacency copy, the other three input windows are whole arrays, and the output window's block at `t` is those rows of
  its array. The ten blocks are the row blocks of ONE function of the arrays the region finds and cover all 10000 rows.
-/
import proofs.«140017_g11441792876995_week1_w4_521_4_alg».proof.Proof.Gen.KernelIdeal.Frame
import proofs.«140017_g11441792876995_week1_w4_521_4_alg».proof.Proof.Payload
import Idealize.ShloMosaic.Lib.Pipeline.Value

set_option maxRecDepth 16384

noncomputable section

namespace Cert.KernelIdeal.Blocks2

open Cert.KernelIdeal Cert.KernelIdeal.Gen Cert.KernelIdeal.Payload Cert.GcnDense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The block indices of the region's windows at point `t`: the adjacency window and the output window are on row block
    `t`, the other windows on their one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The adjacency block at point `t` is rows `1000 t …` of the adjacency copy. -/
theorem iblk2_0_apply (c : Dev nD) (t : Fin cfg2.N) (x : S1000x10000.Idx) (k : S10000x10000.Idx)
    (hk0 : (k 0).val = 1000 * t.val + (x 0).val) (hk1 : (k 1).val = (x 1).val) :
    (iblk2 V c 0 t : Vec Ideal S1000x10000 .bf16) x = (V c main_v2_0 : S10000x10000.Idx → EReal) k := by
  obtain ⟨e0, e1, -⟩ := idx2 t
  unfold iblk2
  rw [View.read_apply]
  show V c main_v2_0 _ = V c main_v2_0 _
  congr 1
  funext a
  apply Fin.ext
  match a with
  | ⟨0, _⟩ => show win2_0.index t 0 * 1000 + 1 * (x 0).val = (k 0).val; rw [e0, hk0]; omega
  | ⟨1, _⟩ => show win2_0.index t 1 * 10000 + 1 * (x 1).val = (k 1).val; rw [e1, hk1]; omega

/-- The feature window's one block is the whole array. -/
theorem iblk2_1_apply (c : Dev nD) (t : Fin cfg2.N) (x : S10000x32.Idx) :
    (iblk2 V c 1 t : Vec Ideal S10000x32 .bf16) x = (V c main_v2_1 : S10000x32.Idx → EReal) x := by
  obtain ⟨-, -, e0, e1, -⟩ := idx2 t
  unfold iblk2
  rw [View.read_apply]
  show V c main_v2_1 _ = V c main_v2_1 _
  congr 1
  funext a
  apply Fin.ext
  match a with
  | ⟨0, _⟩ => show win2_1.index t 0 * 10000 + 1 * (x 0).val = (x 0).val; rw [e0]; omega
  | ⟨1, _⟩ => show win2_1.index t 1 * 32 + 1 * (x 1).val = (x 1).val; rw [e1]; omega

/-- The bias window's one block is the whole row. -/
theorem iblk2_2_apply (c : Dev nD) (t : Fin cfg2.N) (x : S1x32.Idx) :
    (iblk2 V c 2 t : Vec Ideal S1x32 .f32) x = (V c main_v3 : S1x32.Idx → EReal) x := by
  obtain ⟨-, -, -, -, e0, e1, -⟩ := idx2 t
  unfold iblk2
  rw [View.read_apply]
  show V c main_v3 _ = V c main_v3 _
  congr 1
  funext a
  apply Fin.ext
  match a with
  | ⟨0, _⟩ => show win2_2.index t 0 * 1 + 1 * (x 0).val = (x 0).val; rw [e0]; omega
  | ⟨1, _⟩ => show win2_2.index t 1 * 32 + 1 * (x 1).val = (x 1).val; rw [e1]; omega

/-- The weight window's one block is the whole matrix. -/
theorem iblk2_3_apply (c : Dev nD) (t : Fin cfg2.N) (x : S32x16.Idx) :
    (iblk2 V c 3 t : Vec Ideal S32x16 .f32) x = (V c main_arg6 : S32x16.Idx → EReal) x := by
  obtain ⟨-, -, -, -, -, -, e0, e1, -⟩ := idx2 t
  unfold iblk2
  rw [View.read_apply]
  show V c main_arg6 _ = V c main_arg6 _
  congr 1
  funext a
  apply Fin.ext
  match a with
  | ⟨0, _⟩ => show win2_3.index t 0 * 32 + 1 * (x 0).val = (x 0).val; rw [e0]; omega
  | ⟨1, _⟩ => show win2_3.index t 1 * 16 + 1 * (x 1).val = (x 1).val; rw [e1]; omega

/-- What the layer's output array ends holding: `hid` of each row of the adjacency copy. -/
abbrev hidden2 (c : Dev nD) : S10000x16.Idx → EReal := fun i =>
  hid (fun k : Fin 10000 => (V c main_v2_0 : S10000x10000.Idx → EReal) (ix2 (i 0) k))
    (fun (k : Fin 10000) (j : Fin 32) => (V c main_v2_1 : S10000x32.Idx → EReal) (ix2 k j))
    (fun j : Fin 32 => (V c main_v3 : S1x32.Idx → EReal) (ix2 (0 : Fin 1) j))
    (fun (j : Fin 32) (q : Fin 16) => (V c main_arg6 : S32x16.Idx → EReal) (ix2 j q)) (i 1)

/-- What point `t` writes back to the layer's output is block `t` of `hidden2`. -/
theorem flushed2_4_eq (c : Dev nD) (t : Fin cfg2.N) :
    (dat2 V c).flushed 4 t = ((cfg2.win 4).blk t).view.read (Elt Ideal) (hidden2 V c) := by
  show (cfg2.win 4).cut (grid2.coords t) ((dat2 V c).after 4 t) = _
  rw [after2_4]
  unfold out2_4
  rw [View.canon_unit_zero hz2]
  simp only [View.ld_unit_zero (S := S1000x10000) hz2, View.ld_unit_zero (S := S10000x32) hz2, View.ld_unit_zero (S := S1x32) hz2,
    View.ld_unit_zero (S := S32x16) hz2]
  obtain ⟨-, -, -, -, -, -, -, -, e0, e1⟩ := idx2 t
  funext j
  show k2_pay1 (iblk2 V c 0 t) (iblk2 V c 1 t) (iblk2 V c 2 t) (iblk2 V c 3 t) j = hidden2 V c (((cfg2.win 4).blk t).view.emb j)
  refine (pay2_hid_idx (iblk2 V c 0 t) (iblk2 V c 1 t) (iblk2 V c 2 t) (iblk2 V c 3 t) j).trans ?_
  have r0 : ((((cfg2.win 4).blk t).view.emb j) 0).val = 1000 * t.val + (j 0).val := by
    show win2_4.index t 0 * 1000 + 1 * (j 0).val = _; rw [e0]; omega
  have r1 : ((((cfg2.win 4).blk t).view.emb j) 1).val = (j 1).val := by
    show win2_4.index t 1 * 16 + 1 * (j 1).val = _; rw [e1]; omega
  show hid _ _ _ _ _ = hid _ _ _ _ _
  congr 1
  · funext k
    exact iblk2_0_apply V c t _ _ (by rw [r0]) rfl
  · funext k q
    exact iblk2_1_apply V c t _
  · funext q
    exact iblk2_2_apply V c t _
  · funext k q
    exact iblk2_3_apply V c t _
  · exact Fin.ext r1.symm

/-- An index of the layer's output is in point `t`'s block iff each coordinate is in the block's range. -/
theorem mem_blk2_4 (t : Fin cfg2.N) (i : S10000x16.Idx) :
    i ∈ ((cfg2.win 4).blk t).view.set ↔ ∀ a : Fin 2, win2_4.index t a * S1000x16.size a ≤ (i a).val ∧ (i a).val < win2_4.index t a * S1000x16.size a + S1000x16.size a := by
  show i ∈ ((View.whole main_v4).slice (win2_4.rect t)).set ↔ _
  rw [View.set_slice_whole, Rect.mem_set_unit]
  exact Iff.rfl

/-- The point whose block holds row `r`: `r / 1000`. -/
def pointOfRow2 (r : Nat) (hr : r < 10000) : Fin cfg2.N := ⟨r / 1000, by show r / 1000 < grid2.N; rw [N_2]; omega⟩

/-- THE LAYER'S OUTPUT after the region: `hidden2` of the arrays it found (the ten row blocks cover it). -/
theorem final2_4 (c : Dev nD) : (dat2 V c).arrAt 4 cfg2.N = hidden2 V c :=
  (dat2 V c).arrAt_eq_of_cover 4 (hidden2 V c) (fun t _ => flushed2_4_eq V c t) fun i => by
    have h0 : (i 0).val < 10000 := (i 0).isLt
    have h1 : (i 1).val < 16 := (i 1).isLt
    refine ⟨pointOfRow2 (i 0).val h0, flush2_4 _, ?_⟩
    rw [mem_blk2_4]
    obtain ⟨-, -, -, -, -, -, -, -, e0, e1⟩ := idx2 (pointOfRow2 (i 0).val h0)
    intro a
    match a with
    | ⟨0, _⟩ =>
      show win2_4.index (pointOfRow2 (i 0).val h0) 0 * 1000 ≤ (i 0).val ∧ (i 0).val < win2_4.index (pointOfRow2 (i 0).val h0) 0 * 1000 + 1000
      rw [e0]; show (i 0).val / 1000 * 1000 ≤ (i 0).val ∧ (i 0).val < (i 0).val / 1000 * 1000 + 1000; omega
    | ⟨1, _⟩ =>
      show win2_4.index (pointOfRow2 (i 0).val h0) 1 * 16 ≤ (i 1).val ∧ (i 1).val < win2_4.index (pointOfRow2 (i 0).val h0) 1 * 16 + 16
      rw [e1]; omega

end Cert.KernelIdeal.Blocks2

end
-- ==== Proof.Blocks3.lean ====
/-
  The last region, block by block: what the result array holds when it ends.

  Point `t` of the grid works on rows `1000 t … 1000 t + 999`: the adjacency window's block at `t` is those rows of the
  adjacency copy, the feature and bias windows are whole arrays, and the output window's block at `t` is those rows of
  the result. Each row of the result is the logarithm of the softmax of that row of the last dense step, so the ten
  blocks are the row blocks of ONE function of the arrays the region finds and cover all 10000 rows.
-/
import proofs.«140017_g11441792876995_week1_w4_521_4_alg».proof.Proof.Gen.KernelIdeal.Frame
import proofs.«140017_g11441792876995_week1_w4_521_4_alg».proof.Proof.Payload
import Idealize.ShloMosaic.Lib.Pipeline.Value

set_option maxRecDepth 16384

noncomputable section

namespace Cert.KernelIdeal.Blocks3

open Cert.KernelIdeal Cert.KernelIdeal.Gen Cert.KernelIdeal.Payload Cert.GcnDense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The block indices of the region's windows at point `t`: the adjacency window and the output window are on row block
    `t`, the other windows on their one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The adjacency block at point `t` is rows `1000 t …` of the adjacency copy. -/
theorem iblk3_0_apply (c : Dev nD) (t : Fin cfg3.N) (x : S1000x10000.Idx) (k : S10000x10000.Idx)
    (hk0 : (k 0).val = 1000 * t.val + (x 0).val) (hk1 : (k 1).val = (x 1).val) :
    (iblk3 V c 0 t : Vec Ideal S1000x10000 .bf16) x = (V c main_v2_0 : S10000x10000.Idx → EReal) k := by
  obtain ⟨e0, e1, -⟩ := idx3 t
  unfold iblk3
  rw [View.read_apply]
  show V c main_v2_0 _ = V c main_v2_0 _
  congr 1
  funext a
  apply Fin.ext
  match a with
  | ⟨0, _⟩ => show win3_0.index t 0 * 1000 + 1 * (x 0).val = (k 0).val; rw [e0, hk0]; omega
  | ⟨1, _⟩ => show win3_0.index t 1 * 10000 + 1 * (x 1).val = (k 1).val; rw [e1, hk1]; omega

/-- The feature window's one block is the whole array. -/
theorem iblk3_1_apply (c : Dev nD) (t : Fin cfg3.N) (x : S10000x16.Idx) :
    (iblk3 V c 1 t : Vec Ideal S10000x16 .bf16) x = (V c main_v4 : S10000x16.Idx → EReal) x := by
  obtain ⟨-, -, e0, e1, -⟩ := idx3 t
  unfold iblk3
  rw [View.read_apply]
  show V c main_v4 _ = V c main_v4 _
  congr 1
  funext a
  apply Fin.ext
  match a with
  | ⟨0, _⟩ => show win3_1.index t 0 * 10000 + 1 * (x 0).val = (x 0).val; rw [e0]; omega
  | ⟨1, _⟩ => show win3_1.index t 1 * 16 + 1 * (x 1).val = (x 1).val; rw [e1]; omega

/-- The bias window's one block is the whole row. -/
theorem iblk3_2_apply (c : Dev nD) (t : Fin cfg3.N) (x : S1x16.Idx) :
    (iblk3 V c 2 t : Vec Ideal S1x16 .f32) x = (V c main_v5 : S1x16.Idx → EReal) x := by
  obtain ⟨-, -, -, -, e0, e1, -⟩ := idx3 t
  unfold iblk3
  rw [View.read_apply]
  show V c main_v5 _ = V c main_v5 _
  congr 1
  funext a
  apply Fin.ext
  match a with
  | ⟨0, _⟩ => show win3_2.index t 0 * 1 + 1 * (x 0).val = (x 0).val; rw [e0]; omega
  | ⟨1, _⟩ => show win3_2.index t 1 * 16 + 1 * (x 1).val = (x 1).val; rw [e1]; omega

/-- What the result array ends holding: the logarithm of the softmax of each row of the last dense step. -/
abbrev logits3 (c : Dev nD) : S10000x16.Idx → EReal := fun i =>
  lsm (Ideal.ofBits .f32 0xFF800000#32)
    (pre (fun k : Fin 10000 => (V c main_v2_0 : S10000x10000.Idx → EReal) (ix2 (i 0) k))
      (fun (k : Fin 10000) (j : Fin 16) => (V c main_v4 : S10000x16.Idx → EReal) (ix2 k j))
      (fun j : Fin 16 => (V c main_v5 : S1x16.Idx → EReal) (ix2 (0 : Fin 1) j))) (i 1)

/-- What point `t` writes back to the result is block `t` of `logits3`. -/
theorem flushed3_3_eq (c : Dev nD) (t : Fin cfg3.N) :
    (dat3 V c).flushed 3 t = ((cfg3.win 3).blk t).view.read (Elt Ideal) (logits3 V c) := by
  show (cfg3.win 3).cut (grid3.coords t) ((dat3 V c).after 3 t) = _
  rw [after3_3]
  unfold out3_3
  rw [View.canon_unit_zero hz2]
  simp only [View.ld_unit_zero (S := S1000x10000) hz2, View.ld_unit_zero (S := S10000x16) hz2, View.ld_unit_zero (S := S1x16) hz2]
  obtain ⟨-, -, -, -, -, -, e0, e1⟩ := idx3 t
  funext j
  show k3_pay1 (iblk3 V c 0 t) (iblk3 V c 1 t) (iblk3 V c 2 t) j = logits3 V c (((cfg3.win 3).blk t).view.emb j)
  refine (pay3_lsm_idx (iblk3 V c 0 t) (iblk3 V c 1 t) (iblk3 V c 2 t) j).trans ?_
  have r0 : ((((cfg3.win 3).blk t).view.emb j) 0).val = 1000 * t.val + (j 0).val := by
    show win3_3.index t 0 * 1000 + 1 * (j 0).val = _; rw [e0]; omega
  have r1 : ((((cfg3.win 3).blk t).view.emb j) 1).val = (j 1).val := by
    show win3_3.index t 1 * 16 + 1 * (j 1).val = _; rw [e1]; omega
  show lsm _ (pre _ _ _) _ = lsm _ (pre _ _ _) _
  congr 1
  · congr 1
    · funext k
      exact iblk3_0_apply V c t _ _ (by rw [r0]) rfl
    · funext k q
      exact iblk3_1_apply V c t _
    · funext q
      exact iblk3_2_apply V c t _
  · exact Fin.ext r1.symm

/-- An index of the result is in point `t`'s block iff each coordinate is in the block's range. -/
theorem mem_blk3_3 (t : Fin cfg3.N) (i : S10000x16.Idx) :
    i ∈ ((cfg3.win 3).blk t).view.set ↔ ∀ a : Fin 2, win3_3.index t a * S1000x16.size a ≤ (i a).val ∧ (i a).val < win3_3.index t a * S1000x16.size a + S1000x16.size a := by
  show i ∈ ((View.whole main_v6).slice (win3_3.rect t)).set ↔ _
  rw [View.set_slice_whole, Rect.mem_set_unit]
  exact Iff.rfl

/-- The point whose block holds row `r`: `r / 1000`. -/
def pointOfRow3 (r : Nat) (hr : r < 10000) : Fin cfg3.N := ⟨r / 1000, by show r / 1000 < grid3.N; rw [N_3]; omega⟩

/-- THE RESULT after the region: `logits3` of the arrays it found (the ten row blocks cover it). -/
theorem final3_3 (c : Dev nD) : (dat3 V c).arrAt 3 cfg3.N = logits3 V c :=
  (dat3 V c).arrAt_eq_of_cover 3 (logits3 V c) (fun t _ => flushed3_3_eq V c t) fun i => by
    have h0 : (i 0).val < 10000 := (i 0).isLt
    have h1 : (i 1).val < 16 := (i 1).isLt
    refine ⟨pointOfRow3 (i 0).val h0, flush3_3 _, ?_⟩
    rw [mem_blk3_3]
    obtain ⟨-, -, -, -, -, -, e0, e1⟩ := idx3 (pointOfRow3 (i 0).val h0)
    intro a
    match a with
    | ⟨0, _⟩ =>
      show win3_3.index (pointOfRow3 (i 0).val h0) 0 * 1000 ≤ (i 0).val ∧ (i 0).val < win3_3.index (pointOfRow3 (i 0).val h0) 0 * 1000 + 1000
      rw [e0]; show (i 0).val / 1000 * 1000 ≤ (i 0).val ∧ (i 0).val < (i 0).val / 1000 * 1000 + 1000; omega
    | ⟨1, _⟩ =>
      show win3_3.index (pointOfRow3 (i 0).val h0) 1 * 16 ≤ (i 1).val ∧ (i 1).val < win3_3.index (pointOfRow3 (i 0).val h0) 1 * 16 + 16
      rw [e1]; omega

end Cert.KernelIdeal.Blocks3

end
-- ==== Proof.Chain.lean ====
/-
  The kernel's result array, read through the four regions and the three reshapes between them.

  The first region leaves `Z1 = X · Wa`. A reshape makes the bias `ba` a row; the second region leaves a copy of the
  adjacency matrix `A` and `Z2`, whose row `n` is `hid (A n) Z1 ba Wb`; after the next reshape the third region leaves
  `Z3`, whose row `n` is `hid (A n) Z2 bb Wc`; after the last reshape the fourth region leaves, in the result, the
  logarithm of the softmax of `pre (A r) Z3 bc`, row by row. Each region reads arrays that no later host operation or
  region has written, so each is what an earlier step left or an argument as launched. Composed, the result is `net`.
-/
import proofs.«140017_g11441792876995_week1_w4_521_4_alg».proof.Proof.Gen.KernelIdeal.Frame
import proofs.«140017_g11441792876995_week1_w4_521_4_alg».proof.Proof.Blocks0
import proofs.«140017_g11441792876995_week1_w4_521_4_alg».proof.Proof.Blocks1
import proofs.«140017_g11441792876995_week1_w4_521_4_alg».proof.Proof.Blocks2
import proofs.«140017_g11441792876995_week1_w4_521_4_alg».proof.Proof.Blocks3
import Idealize.ShloMosaic.Lib.StableHlo.Run
import Idealize.ShloMosaic.Lib.ValueLayout

set_option maxRecDepth 16384

noncomputable section

namespace Cert.KernelIdeal.Chain

open Cert.KernelIdeal Cert.KernelIdeal.Gen Cert.GcnDense
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The arguments, as matrices and rows -/

def X (c : Dev nD) (r : Fin 10000) (d : Fin 128) : EReal := (m ((c : Thread nD τ).loc main_arg0) : S10000x128.Idx → EReal) (ix2 r d)
def A (c : Dev nD) (r : Fin 10000) (k : Fin 10000) : EReal := (m ((c : Thread nD τ).loc main_arg1) : S10000x10000.Idx → EReal) (ix2 r k)
def Wa (c : Dev nD) (d : Fin 128) (j : Fin 32) : EReal := (m ((c : Thread nD τ).loc main_arg2) : S128x32.Idx → EReal) (ix2 d j)
def ba (c : Dev nD) (j : Fin 32) : EReal := (m ((c : Thread nD τ).loc main_arg3) : S32.Idx → EReal) (ix1 j)
def Wb (c : Dev nD) (j : Fin 32) (q : Fin 32) : EReal := (m ((c : Thread nD τ).loc main_arg4) : S32x32.Idx → EReal) (ix2 j q)
def bb (c : Dev nD) (j : Fin 32) : EReal := (m ((c : Thread nD τ).loc main_arg5) : S32.Idx → EReal) (ix1 j)
def Wc (c : Dev nD) (j : Fin 32) (q : Fin 16) : EReal := (m ((c : Thread nD τ).loc main_arg6) : S32x16.Idx → EReal) (ix2 j q)
def bc (c : Dev nD) (j : Fin 16) : EReal := (m ((c : Thread nD τ).loc main_arg7) : S16.Idx → EReal) (ix1 j)

/-- The features times the first weights. -/
def Z1 (c : Dev nD) (n : Fin 10000) (j : Fin 32) : EReal := ∑ d, X m c n d * Wa m c d j
/-- The first hidden layer, handed to the second. -/
def Z2 (c : Dev nD) (n : Fin 10000) (q : Fin 32) : EReal := hid (A m c n) (Z1 m c) (ba m c) (Wb m c) q
/-- The second hidden layer, handed to the last. -/
def Z3 (c : Dev nD) (n : Fin 10000) (q : Fin 16) : EReal := hid (A m c n) (Z2 m c) (bb m c) (Wc m c) q

/-- `hid` of pointwise equal rows, features, biases and weights. -/
theorem hid_congr {K H C : ℕ} {a a' : Fin K → EReal} {z z' : Fin K → Fin H → EReal} {b b' : Fin H → EReal} {W W' : Fin H → Fin C → EReal}
    (ha : ∀ k, a k = a' k) (hz : ∀ k j, z k j = z' k j) (hb : ∀ j, b j = b' j) (hW : ∀ j q, W j q = W' j q) (q : Fin C) :
    hid a z b W q = hid a' z' b' W' q := by
  rw [funext ha, funext fun k => funext (hz k), funext hb, funext fun j => funext (hW j)]

/-- `pre` of pointwise equal rows, features and biases. -/
theorem pre_congr {K H : ℕ} {a a' : Fin K → EReal} {z z' : Fin K → Fin H → EReal} {b b' : Fin H → EReal}
    (ha : ∀ k, a k = a' k) (hz : ∀ k j, z k j = z' k j) (hb : ∀ j, b j = b' j) : pre a z b = pre a' z' b' := by
  rw [funext ha, funext fun k => funext (hz k), funext hb]

/-! ## A reshape writes its result and nothing else -/

theorem host1_ne (W : Valuation τ sig (Elt Ideal)) (r : Ref sig .tc) (h : r ≠ main_v1) :
    StableHlo.after (hostOps1 (F := Ideal)) W (Proc.devRef .tc r) = W (Proc.devRef .tc r) := by
  simp only [hostOps1, after_cons, after_nil]
  exact reshape_result_ne _ _ _ _ _ _ W h
theorem host2_ne (W : Valuation τ sig (Elt Ideal)) (r : Ref sig .tc) (h : r ≠ main_v3) :
    StableHlo.after (hostOps2 (F := Ideal)) W (Proc.devRef .tc r) = W (Proc.devRef .tc r) := by
  simp only [hostOps2, after_cons, after_nil]
  exact reshape_result_ne _ _ _ _ _ _ W h
theorem host3_ne (W : Valuation τ sig (Elt Ideal)) (r : Ref sig .tc) (h : r ≠ main_v5) :
    StableHlo.after (hostOps3 (F := Ideal)) W (Proc.devRef .tc r) = W (Proc.devRef .tc r) := by
  simp only [hostOps3, after_cons, after_nil]
  exact reshape_result_ne _ _ _ _ _ _ W h

/-- The bias row a reshape makes, read at column `j`: the bias at `j`. -/
theorem host1_at (W : Valuation τ sig (Elt Ideal)) (j : Fin 32) :
    (StableHlo.after (hostOps1 (F := Ideal)) W (Proc.devRef .tc main_v1) : S1x32.Idx → EReal) (ix2 (0 : Fin 1) j)
      = (W (Proc.devRef .tc main_arg3) : S32.Idx → EReal) (ix1 j) := by
  simp only [hostOps1, after_cons, after_nil]
  rw [reshape_result]
  exact shapeCast_a_1a_apply _ _ 0 j
theorem host2_at (W : Valuation τ sig (Elt Ideal)) (j : Fin 32) :
    (StableHlo.after (hostOps2 (F := Ideal)) W (Proc.devRef .tc main_v3) : S1x32.Idx → EReal) (ix2 (0 : Fin 1) j)
      = (W (Proc.devRef .tc main_arg5) : S32.Idx → EReal) (ix1 j) := by
  simp only [hostOps2, after_cons, after_nil]
  rw [reshape_result]
  exact shapeCast_a_1a_apply _ _ 0 j
theorem host3_at (W : Valuation τ sig (Elt Ideal)) (j : Fin 16) :
    (StableHlo.after (hostOps3 (F := Ideal)) W (Proc.devRef .tc main_v5) : S1x16.Idx → EReal) (ix2 (0 : Fin 1) j)
      = (W (Proc.devRef .tc main_arg7) : S16.Idx → EReal) (ix1 j) := by
  simp only [hostOps3, after_cons, after_nil]
  rw [reshape_result]
  exact shapeCast_a_1a_apply _ _ 0 j

/-! ## Region 0 -/

theorem W1_z1 (c : Dev nD) (n : Fin 10000) (j : Fin 32) :
    (W1 m ρ c (Proc.devRef .tc main_v0) : S10000x32.Idx → EReal) (ix2 n j) = Z1 m c n j := by
  rw [show W1 m ρ c (Proc.devRef .tc main_v0) = Blocks0.product0 (V0 m ρ) c from
    (W1_arr m ρ c 2).trans (Blocks0.final0_2 (V0 m ρ) c)]
  rfl

/-! ## Region 1: what it finds, what it leaves -/

theorem V2_adj (c : Dev nD) : V2 m ρ c main_arg1 = m ((c : Thread nD τ).loc main_arg1) :=
  (host1_ne (W1 m ρ c) main_arg1 (by decide)).trans (W1_of_ne m ρ c main_arg1 (by decide))
theorem V2_z1 (c : Dev nD) (n : Fin 10000) (j : Fin 32) : (V2 m ρ c main_v0 : S10000x32.Idx → EReal) (ix2 n j) = Z1 m c n j := by
  rw [show V2 m ρ c main_v0 = W1 m ρ c (Proc.devRef .tc main_v0) from host1_ne (W1 m ρ c) main_v0 (by decide)]
  exact W1_z1 m ρ c n j
theorem V2_ba (c : Dev nD) (j : Fin 32) : (V2 m ρ c main_v1 : S1x32.Idx → EReal) (ix2 (0 : Fin 1) j) = ba m c j := by
  refine (host1_at (W1 m ρ c) j).trans ?_
  rw [W1_of_ne m ρ c main_arg3 (by decide)]
  rfl
theorem V2_Wb (c : Dev nD) : V2 m ρ c main_arg4 = m ((c : Thread nD τ).loc main_arg4) :=
  (host1_ne (W1 m ρ c) main_arg4 (by decide)).trans (W1_of_ne m ρ c main_arg4 (by decide))

theorem W3_adj (c : Dev nD) (r k : Fin 10000) :
    (W3 m ρ c (Proc.devRef .tc main_v2_0) : S10000x10000.Idx → EReal) (ix2 r k) = A m c r k := by
  rw [show W3 m ρ c (Proc.devRef .tc main_v2_0) = Blocks.adjCopy (V2 m ρ) c from
    (W3_arr m ρ c 4).trans (Blocks.final1_4 (V2 m ρ) c)]
  show (V2 m ρ c main_arg1 : S10000x10000.Idx → EReal) (ix2 r k) = _
  rw [V2_adj]
  rfl

theorem W3_z2 (c : Dev nD) (n : Fin 10000) (q : Fin 32) :
    (W3 m ρ c (Proc.devRef .tc main_v2_1) : S10000x32.Idx → EReal) (ix2 n q) = Z2 m c n q := by
  rw [show W3 m ρ c (Proc.devRef .tc main_v2_1) = Blocks.hidden1 (V2 m ρ) c from
    (W3_arr m ρ c 5).trans (Blocks.final1_5 (V2 m ρ) c)]
  unfold Z2
  show hid _ _ _ _ _ = hid _ _ _ _ _
  exact hid_congr (fun k => by rw [V2_adj]; rfl) (fun k j => V2_z1 m ρ c k j) (fun j => V2_ba m ρ c j)
    (fun j q' => by rw [V2_Wb]; rfl) q

/-! ## The later arguments are still as launched when regions 2 and 3 are entered -/

theorem W3_arg5 (c : Dev nD) : W3 m ρ c (Proc.devRef .tc main_arg5) = m ((c : Thread nD τ).loc main_arg5) :=
  (W3_of_ne m ρ c main_arg5 (by decide)).trans ((host1_ne (W1 m ρ c) main_arg5 (by decide)).trans (W1_of_ne m ρ c main_arg5 (by decide)))
theorem W3_arg6 (c : Dev nD) : W3 m ρ c (Proc.devRef .tc main_arg6) = m ((c : Thread nD τ).loc main_arg6) :=
  (W3_of_ne m ρ c main_arg6 (by decide)).trans ((host1_ne (W1 m ρ c) main_arg6 (by decide)).trans (W1_of_ne m ρ c main_arg6 (by decide)))
theorem W3_arg7 (c : Dev nD) : W3 m ρ c (Proc.devRef .tc main_arg7) = m ((c : Thread nD τ).loc main_arg7) :=
  (W3_of_ne m ρ c main_arg7 (by decide)).trans ((host1_ne (W1 m ρ c) main_arg7 (by decide)).trans (W1_of_ne m ρ c main_arg7 (by decide)))

/-! ## Region 2 -/

theorem V4_adj (c : Dev nD) (r k : Fin 10000) : (V4 m ρ c main_v2_0 : S10000x10000.Idx → EReal) (ix2 r k) = A m c r k := by
  rw [show V4 m ρ c main_v2_0 = W3 m ρ c (Proc.devRef .tc main_v2_0) from host2_ne (W3 m ρ c) main_v2_0 (by decide)]
  exact W3_adj m ρ c r k
theorem V4_z2 (c : Dev nD) (n : Fin 10000) (q : Fin 32) : (V4 m ρ c main_v2_1 : S10000x32.Idx → EReal) (ix2 n q) = Z2 m c n q := by
  rw [show V4 m ρ c main_v2_1 = W3 m ρ c (Proc.devRef .tc main_v2_1) from host2_ne (W3 m ρ c) main_v2_1 (by decide)]
  exact W3_z2 m ρ c n q
theorem V4_bb (c : Dev nD) (j : Fin 32) : (V4 m ρ c main_v3 : S1x32.Idx → EReal) (ix2 (0 : Fin 1) j) = bb m c j := by
  refine (host2_at (W3 m ρ c) j).trans ?_
  rw [W3_arg5]
  rfl
theorem V4_Wc (c : Dev nD) : V4 m ρ c main_arg6 = m ((c : Thread nD τ).loc main_arg6) :=
  (host2_ne (W3 m ρ c) main_arg6 (by decide)).trans (W3_arg6 m ρ c)

theorem W5_z3 (c : Dev nD) (n : Fin 10000) (q : Fin 16) :
    (W5 m ρ c (Proc.devRef .tc main_v4) : S10000x16.Idx → EReal) (ix2 n q) = Z3 m c n q := by
  rw [show W5 m ρ c (Proc.devRef .tc main_v4) = Blocks2.hidden2 (V4 m ρ) c from
    (W5_arr m ρ c 4).trans (Blocks2.final2_4 (V4 m ρ) c)]
  unfold Z3
  show hid _ _ _ _ _ = hid _ _ _ _ _
  exact hid_congr (fun k => V4_adj m ρ c n k) (fun k j => V4_z2 m ρ c k j) (fun j => V4_bb m ρ c j)
    (fun j q' => by rw [V4_Wc]; rfl) q

/-! ## Region 3 -/

theorem V6_adj (c : Dev nD) (r k : Fin 10000) : (V6 m ρ c main_v2_0 : S10000x10000.Idx → EReal) (ix2 r k) = A m c r k := by
  rw [show V6 m ρ c main_v2_0 = V4 m ρ c main_v2_0 from
    (host3_ne (W5 m ρ c) main_v2_0 (by decide)).trans
      ((W5_arr m ρ c 0).trans (((dat2 (V4 m ρ) c).arrAt_in 0 rfl _).trans (A_eq2 (V4 m ρ) c 0)))]
  exact V4_adj m ρ c r k
theorem V6_z3 (c : Dev nD) (n : Fin 10000) (q : Fin 16) : (V6 m ρ c main_v4 : S10000x16.Idx → EReal) (ix2 n q) = Z3 m c n q := by
  rw [show V6 m ρ c main_v4 = W5 m ρ c (Proc.devRef .tc main_v4) from host3_ne (W5 m ρ c) main_v4 (by decide)]
  exact W5_z3 m ρ c n q
theorem V6_bc (c : Dev nD) (j : Fin 16) : (V6 m ρ c main_v5 : S1x16.Idx → EReal) (ix2 (0 : Fin 1) j) = bc m c j := by
  refine (host3_at (W5 m ρ c) j).trans ?_
  rw [show W5 m ρ c (Proc.devRef .tc main_arg7) = m ((c : Thread nD τ).loc main_arg7) from
    (W5_of_ne m ρ c main_arg7 (by decide)).trans ((host2_ne (W3 m ρ c) main_arg7 (by decide)).trans (W3_arg7 m ρ c))]
  rfl

/-- THE RESULT, entry (r, q): the logarithm of the softmax of row `r` of the last dense step. -/
theorem W7_out (c : Dev nD) (r : Fin 10000) (q : Fin 16) :
    (W7 m ρ c (Proc.devRef .tc main_v6) : S10000x16.Idx → EReal) (ix2 r q)
      = lsm (Ideal.ofBits .f32 0xFF800000#32) (pre (A m c r) (Z3 m c) (bc m c)) q := by
  rw [show W7 m ρ c (Proc.devRef .tc main_v6) = Blocks3.logits3 (V6 m ρ) c from
    (W7_arr m ρ c 3).trans (Blocks3.final3_3 (V6 m ρ) c)]
  show lsm _ (pre _ _ _) _ = lsm _ (pre _ _ _) _
  rw [pre_congr (fun k => V6_adj m ρ c r k) (fun k j => V6_z3 m ρ c k j) (fun j => V6_bc m ρ c j)]

/-- THE RESULT is the network of the arguments. -/
theorem W7_net (c : Dev nD) (i : S10000x16.Idx) :
    (W7 m ρ c (Proc.devRef .tc main_v6) : S10000x16.Idx → EReal) i
      = net (Ideal.ofBits .f32 0xFF800000#32) (X m c) (A m c) (Wa m c) (ba m c) (Wb m c) (bb m c) (Wc m c) (bc m c) (i 0) (i 1) := by
  obtain ⟨r, q, rfl⟩ : ∃ (r : Fin 10000) (q : Fin 16), i = ix2 r q := ⟨i 0, i 1, eq_ix2 i⟩
  exact W7_out m ρ c r q

end Cert.KernelIdeal.Chain

end
-- ==== Proof.RefNet.lean ====
/-
  The reference program, read as the network of Spec.lean.

  The reference computes a three-layer graph convolution one whole-array operation at a time: a product with the first
  weights, then three times "adjacency times features, plus bias" with a clip at zero and the next weights between
  them, and at the end the logarithm of the softmax of every row, shifted by the row's maximum. Read at one entry
  (r, c) each stage is one of Spec.lean's row formulas: the dense step `pre`, the hidden layer `hid`, the row maximum
  `rowMax` and the shifted logarithm of the softmax `lsm`. Composing the stages gives `net` at (r, c).
-/
import proofs.«140017_g11441792876995_week1_w4_521_4_alg».proof.Proof.RefRead
import proofs.«140017_g11441792876995_week1_w4_521_4_alg».proof.Proof.Spec
import Idealize.ShloMosaic.Lib.ValueIdx
import Idealize.ShloMosaic.PureOps.Ideal.Laws
import Idealize.ShloMosaic.PureOps.Reduce

noncomputable section

namespace Cert.ReferenceIdeal.RefNet

open Cert.ReferenceIdeal Cert.ReferenceIdeal.Gen Cert.ReferenceIdeal.ReadP Idealize.ShloMosaic Idealize.ShloMosaic.ValueIdx Cert.GcnDense
open scoped BigOperators

variable (x0 : (⟨S10000x128, .f32⟩ : BufTy).Contents (Elt Ideal)) (x1 : (⟨S10000x10000, .f32⟩ : BufTy).Contents (Elt Ideal))
  (x2 : (⟨S128x32, .f32⟩ : BufTy).Contents (Elt Ideal)) (x3 : (⟨S32, .f32⟩ : BufTy).Contents (Elt Ideal))
  (x4 : (⟨S32x32, .f32⟩ : BufTy).Contents (Elt Ideal)) (x5 : (⟨S32, .f32⟩ : BufTy).Contents (Elt Ideal))
  (x6 : (⟨S32x16, .f32⟩ : BufTy).Contents (Elt Ideal)) (x7 : (⟨S16, .f32⟩ : BufTy).Contents (Elt Ideal))

/-! ## Where each stage reads its operands, by coordinates

A matrix product's entry (r, j) reads row r of its left operand and column j of its right one; a bias broadcast over
the rows reads entry j of the bias at (r, j); a per-row scalar broadcast over the columns reads entry r at (r, c). -/

theorem lidx0 (r : Fin 10000) (j : Fin 32) (k : Fin 128) : lidx_main_v0 (ix2 r j) k = ix2 r k :=
  funext fun a => Fin.ext (by match a with | ⟨0, _⟩ => rfl | ⟨1, _⟩ => rfl)
theorem ridx0 (r : Fin 10000) (j : Fin 32) (k : Fin 128) : ridx_main_v0 (ix2 r j) k = ix2 k j :=
  funext fun a => Fin.ext (by match a with | ⟨0, _⟩ => rfl | ⟨1, _⟩ => rfl)
theorem lidx1 (r : Fin 10000) (j : Fin 32) (k : Fin 10000) : lidx_main_v1 (ix2 r j) k = ix2 r k :=
  funext fun a => Fin.ext (by match a with | ⟨0, _⟩ => rfl | ⟨1, _⟩ => rfl)
theorem ridx1 (r : Fin 10000) (j : Fin 32) (k : Fin 10000) : ridx_main_v1 (ix2 r j) k = ix2 k j :=
  funext fun a => Fin.ext (by match a with | ⟨0, _⟩ => rfl | ⟨1, _⟩ => rfl)
theorem idx3 (r : Fin 10000) (j : Fin 32) : idx_main_v2 (idx_main_v3 (ix2 r j)) = ix1 j :=
  funext fun a => Fin.ext (by match a with | ⟨0, _⟩ => rfl)
theorem lidx6 (r : Fin 10000) (q : Fin 32) (k : Fin 32) : lidx_main_v6 (ix2 r q) k = ix2 r k :=
  funext fun a => Fin.ext (by match a with | ⟨0, _⟩ => rfl | ⟨1, _⟩ => rfl)
theorem ridx6 (r : Fin 10000) (q : Fin 32) (k : Fin 32) : ridx_main_v6 (ix2 r q) k = ix2 k q :=
  funext fun a => Fin.ext (by match a with | ⟨0, _⟩ => rfl | ⟨1, _⟩ => rfl)
theorem lidx7 (r : Fin 10000) (j : Fin 32) (k : Fin 10000) : lidx_main_v7 (ix2 r j) k = ix2 r k :=
  funext fun a => Fin.ext (by match a with | ⟨0, _⟩ => rfl | ⟨1, _⟩ => rfl)
theorem ridx7 (r : Fin 10000) (j : Fin 32) (k : Fin 10000) : ridx_main_v7 (ix2 r j) k = ix2 k j :=
  funext fun a => Fin.ext (by match a with | ⟨0, _⟩ => rfl | ⟨1, _⟩ => rfl)
theorem idx9 (r : Fin 10000) (j : Fin 32) : idx_main_v8 (idx_main_v9 (ix2 r j)) = ix1 j :=
  funext fun a => Fin.ext (by match a with | ⟨0, _⟩ => rfl)
theorem lidx12 (r : Fin 10000) (q : Fin 16) (k : Fin 32) : lidx_main_v12 (ix2 r q) k = ix2 r k :=
  funext fun a => Fin.ext (by match a with | ⟨0, _⟩ => rfl | ⟨1, _⟩ => rfl)
theorem ridx12 (r : Fin 10000) (q : Fin 16) (k : Fin 32) : ridx_main_v12 (ix2 r q) k = ix2 k q :=
  funext fun a => Fin.ext (by match a with | ⟨0, _⟩ => rfl | ⟨1, _⟩ => rfl)
theorem lidx13 (r : Fin 10000) (c : Fin 16) (k : Fin 10000) : lidx_main_v13 (ix2 r c) k = ix2 r k :=
  funext fun a => Fin.ext (by match a with | ⟨0, _⟩ => rfl | ⟨1, _⟩ => rfl)
theorem ridx13 (r : Fin 10000) (c : Fin 16) (k : Fin 10000) : ridx_main_v13 (ix2 r c) k = ix2 k c :=
  funext fun a => Fin.ext (by match a with | ⟨0, _⟩ => rfl | ⟨1, _⟩ => rfl)
theorem idx15 (r : Fin 10000) (c : Fin 16) : idx_main_v14 (idx_main_v15 (ix2 r c)) = ix1 c :=
  funext fun a => Fin.ext (by match a with | ⟨0, _⟩ => rfl)
theorem idxRow4 (r : Fin 10000) (c : Fin 16) : idx_main_call2_v3 (idx_main_call2_v4 (ix2 r c)) = ix1 r :=
  funext fun a => Fin.ext (by match a with | ⟨0, _⟩ => rfl)
theorem idxRow7 (r : Fin 10000) (k : Fin 16) : idx_main_call2_v7 (ix1 r) k = ix2 r k :=
  funext fun a => Fin.ext (by match a with | ⟨0, _⟩ => rfl | ⟨1, _⟩ => rfl)
theorem idxRow10 (r : Fin 10000) (c : Fin 16) : idx_main_call2_v8 (idx_main_call2_v10 (ix2 r c)) = ix1 r :=
  funext fun a => Fin.ext (by match a with | ⟨0, _⟩ => rfl)

/-! ## The three layers -/

/-- The features times the first weights, entry (r, j). -/
theorem z1_apply (r : Fin 10000) (j : Fin 32) :
    val_main_v0 (F := Ideal) x0 x2 (ix2 r j) = ∑ d : Fin 128, x0 (ix2 r d) * x2 (ix2 d j) := by
  rw [val_main_v0_apply]
  exact Finset.sum_congr rfl fun k _ => by rw [lidx0, ridx0]

/-- The zero the first clip compares with. -/
theorem zero0_apply (i : S10000x32.Idx) : val_main_call0_v0 (F := Ideal) i = 0 := by
  rw [val_main_call0_v0_apply, val_main_call0_cst_apply]
  exact Ideal.ofBits_zero_f32

/-- The zero the second clip compares with. -/
theorem zero1_apply (i : S10000x32.Idx) : val_main_call1_v0 (F := Ideal) i = 0 := by
  rw [val_main_call1_v0_apply, val_main_call1_cst_apply]
  exact Ideal.ofBits_zero_f32

/-- The first dense step, entry (r, j): row r of the adjacency matrix times the first product, plus the bias. -/
theorem pre1_apply (r : Fin 10000) (j : Fin 32) :
    val_main_v4 (F := Ideal) x0 x1 x2 x3 (ix2 r j)
      = pre (fun k : Fin 10000 => x1 (ix2 r k)) (fun (n : Fin 10000) (j : Fin 32) => ∑ d : Fin 128, x0 (ix2 n d) * x2 (ix2 d j))
          (fun j : Fin 32 => x3 (ix1 j)) j := by
  rw [val_main_v4_apply, val_main_v1_apply, val_main_v3_apply, val_main_v2_apply, idx3]
  unfold pre
  refine congrArg (· + x3 (ix1 j)) (Finset.sum_congr rfl fun k _ => ?_)
  rw [lidx1, ridx1, z1_apply]

/-- The first hidden layer handed on, entry (r, q). -/
theorem hid1_apply (r : Fin 10000) (q : Fin 32) :
    val_main_v6 (F := Ideal) x0 x1 x2 x3 x4 (ix2 r q)
      = hid (fun k : Fin 10000 => x1 (ix2 r k)) (fun (n : Fin 10000) (j : Fin 32) => ∑ d : Fin 128, x0 (ix2 n d) * x2 (ix2 d j))
          (fun j : Fin 32 => x3 (ix1 j)) (fun (j : Fin 32) (q : Fin 32) => x4 (ix2 j q)) q := by
  rw [val_main_v6_apply]
  unfold hid
  refine Finset.sum_congr rfl fun k _ => ?_
  rw [lidx6, ridx6, val_main_v5_apply, pre1_apply, zero0_apply]
  rfl

/-- The second dense step, entry (r, j). -/
theorem pre2_apply (r : Fin 10000) (j : Fin 32) :
    val_main_v10 (F := Ideal) x0 x1 x2 x3 x4 x5 (ix2 r j)
      = pre (fun k : Fin 10000 => x1 (ix2 r k))
          (fun (n : Fin 10000) (q : Fin 32) =>
            hid (fun k : Fin 10000 => x1 (ix2 n k)) (fun (n : Fin 10000) (j : Fin 32) => ∑ d : Fin 128, x0 (ix2 n d) * x2 (ix2 d j))
              (fun j : Fin 32 => x3 (ix1 j)) (fun (j : Fin 32) (q : Fin 32) => x4 (ix2 j q)) q)
          (fun q : Fin 32 => x5 (ix1 q)) j := by
  rw [val_main_v10_apply, val_main_v7_apply, val_main_v9_apply, val_main_v8_apply, idx9]
  unfold pre
  refine congrArg (· + x5 (ix1 j)) (Finset.sum_congr rfl fun k _ => ?_)
  rw [lidx7, ridx7, hid1_apply]

/-- The second hidden layer handed on, entry (r, q). -/
theorem hid2_apply (r : Fin 10000) (q : Fin 16) :
    val_main_v12 (F := Ideal) x0 x1 x2 x3 x4 x5 x6 (ix2 r q)
      = hid (fun k : Fin 10000 => x1 (ix2 r k))
          (fun (n : Fin 10000) (q : Fin 32) =>
            hid (fun k : Fin 10000 => x1 (ix2 n k)) (fun (n : Fin 10000) (j : Fin 32) => ∑ d : Fin 128, x0 (ix2 n d) * x2 (ix2 d j))
              (fun j : Fin 32 => x3 (ix1 j)) (fun (j : Fin 32) (q : Fin 32) => x4 (ix2 j q)) q)
          (fun q : Fin 32 => x5 (ix1 q)) (fun (j : Fin 32) (q : Fin 16) => x6 (ix2 j q)) q := by
  rw [val_main_v12_apply]
  unfold hid
  refine Finset.sum_congr rfl fun k _ => ?_
  rw [lidx12, ridx12, val_main_v11_apply, pre2_apply, zero1_apply]
  rfl

/-- The last dense step, entry (r, c): the row the softmax is taken of. -/
theorem pre3_apply (r : Fin 10000) (c : Fin 16) :
    val_main_v16 (F := Ideal) x0 x1 x2 x3 x4 x5 x6 x7 (ix2 r c)
      = pre (fun k : Fin 10000 => x1 (ix2 r k))
          (fun (n : Fin 10000) (q : Fin 16) =>
            hid (fun k : Fin 10000 => x1 (ix2 n k))
              (fun (n : Fin 10000) (q : Fin 32) =>
                hid (fun k : Fin 10000 => x1 (ix2 n k)) (fun (n : Fin 10000) (j : Fin 32) => ∑ d : Fin 128, x0 (ix2 n d) * x2 (ix2 d j))
                  (fun j : Fin 32 => x3 (ix1 j)) (fun (j : Fin 32) (q : Fin 32) => x4 (ix2 j q)) q)
              (fun q : Fin 32 => x5 (ix1 q)) (fun (j : Fin 32) (q : Fin 16) => x6 (ix2 j q)) q)
          (fun q : Fin 16 => x7 (ix1 q)) c := by
  rw [val_main_v16_apply, val_main_v13_apply, val_main_v15_apply, val_main_v14_apply, idx15]
  unfold pre
  refine congrArg (· + x7 (ix1 c)) (Finset.sum_congr rfl fun k _ => ?_)
  rw [lidx13, ridx13, hid2_apply]

/-! ## The logarithm of the softmax of a row

The stages after the last dense step depend on its output `y` only, one row at a time. -/

/-- The row maximum the reference folds, entry r: `max` folded from minus infinity over the row's entries. -/
theorem rowMax_apply (r : Fin 10000) :
    val_main_call2_v0 (F := Ideal) x0 x1 x2 x3 x4 x5 x6 x7 (ix1 r)
      = rowMax (Ideal.ofBits .f32 0xFF800000#32)
          (fun c : Fin 16 => val_main_v16 (F := Ideal) x0 x1 x2 x3 x4 x5 x6 x7 (ix2 r c)) := by
  unfold val_main_call2_v0
  generalize val_main_v16 (F := Ideal) x0 x1 x2 x3 x4 x5 x6 x7 = y
  have h : S10000x16.Reduces [1] S10000 := by decide
  refine (Host.reduce_eq_fold_single _ y _ _ h _ (ix1 r)).trans ?_
  have hl : (y ∘ h.lift (ix1 r)) = fun c : Fin 16 => y (ix2 r c) :=
    funext fun k => congrArg y (funext fun a => Fin.ext (by match a with | ⟨0, _⟩ => rfl | ⟨1, _⟩ => rfl))
  rw [hl]
  rfl

/-- The maximum with minus infinity the reference takes after the fold changes nothing. -/
theorem rowMax2_apply (r : Fin 10000) :
    val_main_call2_v2 (F := Ideal) x0 x1 x2 x3 x4 x5 x6 x7 (ix1 r)
      = rowMax (Ideal.ofBits .f32 0xFF800000#32)
          (fun c : Fin 16 => val_main_v16 (F := Ideal) x0 x1 x2 x3 x4 x5 x6 x7 (ix2 r c)) := by
  rw [val_main_call2_v2_apply, val_main_call2_v1_apply, val_main_call2_cst_0_apply, rowMax_apply]
  exact max_rowMax _ _

/-- The row's entry minus the row's maximum, entry (r, c). -/
theorem shift_apply (r : Fin 10000) (c : Fin 16) :
    val_main_call2_v5 (F := Ideal) x0 x1 x2 x3 x4 x5 x6 x7 (ix2 r c)
      = val_main_v16 (F := Ideal) x0 x1 x2 x3 x4 x5 x6 x7 (ix2 r c)
        - rowMax (Ideal.ofBits .f32 0xFF800000#32)
            (fun c : Fin 16 => val_main_v16 (F := Ideal) x0 x1 x2 x3 x4 x5 x6 x7 (ix2 r c)) := by
  rw [val_main_call2_v5_apply, val_main_call2_v4_apply, val_main_call2_v3_apply, idxRow4, rowMax2_apply]
  rfl

/-- The sum of the exponentials of the shifted row, entry r. -/
theorem sumExp_apply (r : Fin 10000) :
    val_main_call2_v7 (F := Ideal) x0 x1 x2 x3 x4 x5 x6 x7 (ix1 r)
      = ∑ j : Fin 16, Ideal.exp (val_main_v16 (F := Ideal) x0 x1 x2 x3 x4 x5 x6 x7 (ix2 r j)
          - rowMax (Ideal.ofBits .f32 0xFF800000#32)
              (fun c : Fin 16 => val_main_v16 (F := Ideal) x0 x1 x2 x3 x4 x5 x6 x7 (ix2 r c))) := by
  rw [val_main_call2_v7_apply, val_main_call2_cst_1_apply]
  rw [show FloatOps.ofBits (F := Ideal) .f32 0x00000000#32 = 0 from Ideal.ofBits_zero_f32, zero_add]
  refine Finset.sum_congr rfl fun k _ => ?_
  rw [idxRow7, val_main_call2_v6_apply, shift_apply]
  rfl

/-- The reference's last stage, entry (r, c): the logarithm of the softmax of row r of the last dense step. -/
theorem lsm_apply (r : Fin 10000) (c : Fin 16) :
    val_main_v17 (F := Ideal) x0 x1 x2 x3 x4 x5 x6 x7 (ix2 r c)
      = lsm (Ideal.ofBits .f32 0xFF800000#32)
          (fun c : Fin 16 => val_main_v16 (F := Ideal) x0 x1 x2 x3 x4 x5 x6 x7 (ix2 r c)) c := by
  rw [val_main_v17_apply, val_main_call2_v10_apply, val_main_call2_v9_apply, val_main_call2_v8_apply, idxRow10,
    sumExp_apply, shift_apply]
  rfl

/-! ## The whole reference -/

/-- The reference's result at an entry is the network of the specification at that entry's coordinates. -/
theorem ref_eq_net (i : S10000x16.Idx) :
    Cert.ReferenceIdeal.ReadP.val_main_v17 (F := Ideal) x0 x1 x2 x3 x4 x5 x6 x7 i
      = Cert.GcnDense.net (Ideal.ofBits .f32 0xFF800000#32)
          (fun (r : Fin 10000) (d : Fin 128) => x0 (ix2 r d)) (fun (r : Fin 10000) (k : Fin 10000) => x1 (ix2 r k))
          (fun (d : Fin 128) (j : Fin 32) => x2 (ix2 d j)) (fun j : Fin 32 => x3 (ix1 j))
          (fun (j : Fin 32) (q : Fin 32) => x4 (ix2 j q)) (fun q : Fin 32 => x5 (ix1 q))
          (fun (j : Fin 32) (q : Fin 16) => x6 (ix2 j q)) (fun q : Fin 16 => x7 (ix1 q)) (i 0) (i 1) := by
  obtain ⟨r, c, rfl⟩ : ∃ (r : Fin 10000) (c : Fin 16), i = ix2 r c := ⟨i 0, i 1, eq_ix2 i⟩
  rw [lsm_apply]
  unfold net
  have hy : (fun c : Fin 16 => val_main_v16 (F := Ideal) x0 x1 x2 x3 x4 x5 x6 x7 (ix2 r c)) = _ :=
    funext fun c => pre3_apply x0 x1 x2 x3 x4 x5 x6 x7 r c
  rw [hy]

end Cert.ReferenceIdeal.RefNet

end
-- ==== Proof.lean ====
/-
  A three-layer graph convolution with a dense adjacency matrix A: a Pallas kernel of four pallas_calls against its
  jnp reference, over the extended reals.

  Both programs compute, row by row, `log_softmax (A · (relu (A · (relu (A · (X · W1) + b1) · W2) + b2) · W3) + b3)`, with
  the matrix products associated the same way. The kernel cuts the rows of A into blocks (400 rows a block in the first
  hidden layer, 1000 in the other two) and keeps a copy of A in another float format for the later layers; over the
  extended reals a change of format is the identity, so the copy is A, and a row of a layer's output depends on the same
  row of A only, so the blocks are row blocks of the whole-array function. A matrix product into a zero accumulator and
  the host's dot_general are the same sum over the contracted coordinate, a lane reduction and the host's reduce the
  same sum or the same fold of max, and the host's extra `max (-inf) ·` before the shift changes nothing. No law of
  arithmetic beyond these is used, so the precondition is never opened.

  The kernel's run with the result named (Proof/KernelRun.lean), the result read through the regions
  (Proof/Chain.lean over Proof/Blocks0–3.lean and Proof/Payload.lean), the reference's run (Proof/RefRun.lean) read
  stage by stage (Proof/RefRead.lean, Proof/RefNet.lean), and the common function (Proof/Spec.lean).
-/
import proofs.«140017_g11441792876995_week1_w4_521_4_alg».proof.Defs
import proofs.«140017_g11441792876995_week1_w4_521_4_alg».proof.Proof.Gen.Kernel
import proofs.«140017_g11441792876995_week1_w4_521_4_alg».proof.Proof.Gen.Kernel.Frame
import proofs.«140017_g11441792876995_week1_w4_521_4_alg».proof.Proof.Gen.KernelIdeal
import proofs.«140017_g11441792876995_week1_w4_521_4_alg».proof.Proof.Gen.KernelIdeal.Frame
import proofs.«140017_g11441792876995_week1_w4_521_4_alg».proof.Proof.Gen.ReferenceIdeal
import proofs.«140017_g11441792876995_week1_w4_521_4_alg».proof.Proof.Gen.Pre_finite_inputs
import proofs.«140017_g11441792876995_week1_w4_521_4_alg».proof.Proof.KernelRun
import proofs.«140017_g11441792876995_week1_w4_521_4_alg».proof.Proof.Chain
import proofs.«140017_g11441792876995_week1_w4_521_4_alg».proof.Proof.RefRun
import proofs.«140017_g11441792876995_week1_w4_521_4_alg».proof.Proof.RefRead
import proofs.«140017_g11441792876995_week1_w4_521_4_alg».proof.Proof.RefNet
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- Both programs end with the result at `net` of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => fun i => Cert.GcnDense.net (Ideal.ofBits .f32 0xFF800000#32) (Cert.KernelIdeal.Chain.X m c) (Cert.KernelIdeal.Chain.A m c)
    (Cert.KernelIdeal.Chain.Wa m c) (Cert.KernelIdeal.Chain.ba m c) (Cert.KernelIdeal.Chain.Wb m c) (Cert.KernelIdeal.Chain.bb m c)
    (Cert.KernelIdeal.Chain.Wc m c) (Cert.KernelIdeal.Chain.bc m c) (i 0) (i 1), ?_, ?_⟩
  · exact (θ_run Cert.KernelIdeal.defs _ _).mono
      (fun _ h c => ⟨(h c).1.trans (funext fun i => Cert.KernelIdeal.Chain.W7_net m ρ c i), (h c).2⟩)
      (Cert.KernelIdeal.Run.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.ReadP.val_main_v17_eq, h0, h1, h2, h3, h4, h5, h6, h7]
    funext i
    exact Cert.ReferenceIdeal.RefNet.ref_eq_net _ _ _ _ _ _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
